-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S200x128 : Shape := ⟨2, ![200, 128]⟩
abbrev S50000x1 : Shape := ⟨2, ![50000, 1]⟩
abbrev S2x128x128 : Shape := ⟨3, ![2, 128, 128]⟩
abbrev S500000 : Shape := ⟨1, ![500000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S200x128 : S_.BroadcastsInDim S200x128 (![] : Fin 0 → Fin S200x128.rank)
  reducesTo_S200x128_S_d0_1 : S200x128.ReducesTo [0, 1] S_
  bcast_S_S50000x1 : S_.BroadcastsInDim S50000x1 (![] : Fin 0 → Fin S50000x1.rank)
  reducesTo_S50000x1_S_d0_1 : S50000x1.ReducesTo [0, 1] S_
  bcast_S_S2x128x128 : S_.BroadcastsInDim S2x128x128 (![] : Fin 0 → Fin S2x128x128.rank)
  reducesTo_S2x128x128_S_d0_1_2 : S2x128x128.ReducesTo [0, 1, 2] S_

variable [Facts]

def fn_part1 {F : FTy → Type} [FloatOps F] (main_arg4 : FVec F S2x128x128 .f32) (main_arg5 : FVec F S2x128x128 .f32) (main_v13 : IVec S_ 1) (main_v16 : IVec S2x128x128 1) : IVec S_ 1 :=
  let main_c_5 : IVec S_ 1 := constantI S_ 1 1#1
  let main_v17 : IVec S_ 1 := (fun x v => Host.reduce IntOp.andi x v reducesTo_S2x128x128_S_d0_1_2 h_S_) main_v16 main_c_5
  let main_v18 : IVec S_ 1 := andi main_v13 main_v17
  let main_v19 : FVec F S2x128x128 .f32 := Host.absf main_arg4
  let main_cst_6 : FVec F S_ .f32 := constant S_ .f32 0x7F800000#32
  let main_v20 : FVec F S2x128x128 .f32 := broadcastInDim S2x128x128 ![] bcast_S_S2x128x128 main_cst_6
  let main_v21 : IVec S2x128x128 1 := cmpf .olt main_v19 main_v20
  let main_c_7 : IVec S_ 1 := constantI S_ 1 1#1
  let main_v22 : IVec S_ 1 := (fun x v => Host.reduce IntOp.andi x v reducesTo_S2x128x128_S_d0_1_2 h_S_) main_v21 main_c_7
  let main_v23 : IVec S_ 1 := andi main_v18 main_v22
  let main_v24 : FVec F S2x128x128 .f32 := Host.absf main_arg5
  let main_cst_8 : FVec F S_ .f32 := constant S_ .f32 0x7F800000#32
  let main_v25 : FVec F S2x128x128 .f32 := broadcastInDim S2x128x128 ![] bcast_S_S2x128x128 main_cst_8
  let main_v26 : IVec S2x128x128 1 := cmpf .olt main_v24 main_v25
  let main_c_9 : IVec S_ 1 := constantI S_ 1 1#1
  let main_v27 : IVec S_ 1 := (fun x v => Host.reduce IntOp.andi x v reducesTo_S2x128x128_S_d0_1_2 h_S_) main_v26 main_c_9
  let main_v28 : IVec S_ 1 := andi main_v23 main_v27
  main_v28

def fn {F : FTy → Type} [FloatOps F] (main_arg0 : FVec F S50000x128 .f32) (main_arg1 : FVec F S200x128 .f32) (main_arg2 : FVec F S50000x1 .f32) (main_arg3 : FVec F S2x128x128 .f32) (main_arg4 : FVec F S2x128x128 .f32) (main_arg5 : FVec F S2x128x128 .f32) (main_arg6 : IVec S500000 32) (main_arg7 : IVec S500000 32) (main_arg8 : IVec S500000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S200x128 .f32 := Host.absf main_arg1
  let main_cst_0 : FVec F S_ .f32 := constant S_ .f32 0x7F800000#32
  let main_v5 : FVec F S200x128 .f32 := broadcastInDim S200x128 ![] bcast_S_S200x128 main_cst_0
  let main_v6 : IVec S200x128 1 := cmpf .olt main_v4 main_v5
  let main_c_1 : IVec S_ 1 := constantI S_ 1 1#1
  let main_v7 : IVec S_ 1 := (fun x v => Host.reduce IntOp.andi x v reducesTo_S200x128_S_d0_1 h_S_) main_v6 main_c_1
  let main_v8 : IVec S_ 1 := andi main_v3 main_v7
  let main_v9 : FVec F S50000x1 .f32 := Host.absf main_arg2
  let main_cst_2 : FVec F S_ .f32 := constant S_ .f32 0x7F800000#32
  let main_v10 : FVec F S50000x1 .f32 := broadcastInDim S50000x1 ![] bcast_S_S50000x1 main_cst_2
  let main_v11 : IVec S50000x1 1 := cmpf .olt main_v9 main_v10
  let main_c_3 : IVec S_ 1 := constantI S_ 1 1#1
  let main_v12 : IVec S_ 1 := (fun x v => Host.reduce IntOp.andi x v reducesTo_S50000x1_S_d0_1 h_S_) main_v11 main_c_3
  let main_v13 : IVec S_ 1 := andi main_v8 main_v12
  let main_v14 : FVec F S2x128x128 .f32 := Host.absf main_arg3
  let main_cst_4 : FVec F S_ .f32 := constant S_ .f32 0x7F800000#32
  let main_v15 : FVec F S2x128x128 .f32 := broadcastInDim S2x128x128 ![] bcast_S_S2x128x128 main_cst_4
  let main_v16 : IVec S2x128x128 1 := cmpf .olt main_v14 main_v15
  fn_part1 (F := F) main_arg4 main_arg5 main_v13 main_v16
-- ==== Kernel.lean ====
abbrev S50000x128 : Shape := ⟨2, ![50000, 128]⟩
abbrev S200x128 : Shape := ⟨2, ![200, 128]⟩
abbrev S50000x1 : Shape := ⟨2, ![50000, 1]⟩
abbrev S2x128x128 : Shape := ⟨3, ![2, 128, 128]⟩
abbrev S500000 : Shape := ⟨1, ![500000]⟩
abbrev S_ : Shape := ⟨0, ![]⟩
abbrev S50000 : Shape := ⟨1, ![50000]⟩
abbrev S500000x1 : Shape := ⟨2, ![500000, 1]⟩
abbrev S500000x128 : Shape := ⟨2, ![500000, 128]⟩
abbrev S1x128x128 : Shape := ⟨3, ![1, 128, 128]⟩
abbrev S128x128 : Shape := ⟨2, ![128, 128]⟩
abbrev S5000x128 : Shape := ⟨2, ![5000, 128]⟩
abbrev S2000x128 : Shape := ⟨2, ![2000, 128]⟩
abbrev S2000x1 : Shape := ⟨2, ![2000, 1]⟩

abbrev nBuf : Space → Nat
  | .hbm => 71
  | .vmem => 38
  | .smem => 0
  | _ => 0

abbrev bufTy : (tb : Table) → Fin (tcTables nBuf tb) → BufTy
  | .hbm, ⟨0, _⟩ => ⟨S50000x128, .f32⟩
  | .hbm, ⟨1, _⟩ => ⟨S200x128, .f32⟩
  | .hbm, ⟨2, _⟩ => ⟨S50000x1, .f32⟩
  | .hbm, ⟨3, _⟩ => ⟨S2x128x128, .f32⟩
  | .hbm, ⟨4, _⟩ => ⟨S2x128x128, .f32⟩
  | .hbm, ⟨5, _⟩ => ⟨S2x128x128, .f32⟩
  | .hbm, ⟨6, _⟩ => ⟨S500000, .i32⟩
  | .hbm, ⟨7, _⟩ => ⟨S500000, .i32⟩
  | .hbm, ⟨8, _⟩ => ⟨S500000, .i32⟩
  | .hbm, ⟨9, _⟩ => ⟨S_, .f32⟩
  | .hbm, ⟨10, _⟩ => ⟨S500000, .f32⟩
  | .hbm, ⟨11, _⟩ => ⟨S_, .f32⟩
  | .hbm, ⟨12, _⟩ => ⟨S50000, .f32⟩
  | .hbm, ⟨13, _⟩ => ⟨S500000x1, .i32⟩
  | .hbm, ⟨14, _⟩ => ⟨S50000, .f32⟩
  | .hbm, ⟨15, _⟩ => ⟨S_, .f32⟩
  | .hbm, ⟨16, _⟩ => ⟨S50000, .f32⟩
  | .hbm, ⟨17, _⟩ => ⟨S50000, .i1⟩
  | .hbm, ⟨18, _⟩ => ⟨S50000, .f32⟩
  | .hbm, ⟨19, _⟩ => ⟨S50000x1, .f32⟩
  | .hbm, ⟨20, _⟩ => ⟨S_, .i32⟩
  | .hbm, ⟨21, _⟩ => ⟨S500000, .i32⟩
  | .hbm, ⟨22, _⟩ => ⟨S500000, .i1⟩
  | .hbm, ⟨23, _⟩ => ⟨S_, .i32⟩
  | .hbm, ⟨24, _⟩ => ⟨S500000, .i32⟩
  | .hbm, ⟨25, _⟩ => ⟨S500000, .i32⟩
  | .hbm, ⟨26, _⟩ => ⟨S500000, .i32⟩
  | .hbm, ⟨27, _⟩ => ⟨S500000x1, .i32⟩
  | .hbm, ⟨28, _⟩ => ⟨S500000x128, .f32⟩
  | .hbm, ⟨29, _⟩ => ⟨S_, .i32⟩
  | .hbm, ⟨30, _⟩ => ⟨S500000, .i32⟩
  | .hbm, ⟨31, _⟩ => ⟨S500000, .i1⟩
  | .hbm, ⟨32, _⟩ => ⟨S_, .i32⟩
  | .hbm, ⟨33, _⟩ => ⟨S500000, .i32⟩
  | .hbm, ⟨34, _⟩ => ⟨S500000, .i32⟩
  | .hbm, ⟨35, _⟩ => ⟨S500000, .i32⟩
  | .hbm, ⟨36, _⟩ => ⟨S500000x1, .i32⟩
  | .hbm, ⟨37, _⟩ => ⟨S500000x128, .f32⟩
  | .hbm, ⟨38, _⟩ => ⟨S1x128x128, .f32⟩
  | .hbm, ⟨39, _⟩ => ⟨S128x128, .f32⟩
  | .hbm, ⟨40, _⟩ => ⟨S500000x128, .f32⟩
  | .hbm, ⟨41, _⟩ => ⟨S_, .f32⟩
  | .hbm, ⟨42, _⟩ => ⟨S50000x128, .f32⟩
  | .hbm, ⟨43, _⟩ => ⟨S500000x1, .i32⟩
  | .hbm, ⟨44, _⟩ => ⟨S50000x128, .f32⟩
  | .hbm, ⟨45, _⟩ => ⟨S1x128x128, .f32⟩
  | .hbm, ⟨46, _⟩ => ⟨S128x128, .f32⟩
  | .hbm, ⟨47, _⟩ => ⟨S1x128x128, .f32⟩
  | .hbm, ⟨48, _⟩ => ⟨S128x128, .f32⟩
  | .hbm, ⟨49, _⟩ => ⟨S50000x128, .f32⟩
  | .hbm, ⟨50, _⟩ => ⟨S_, .i32⟩
  | .hbm, ⟨51, _⟩ => ⟨S500000, .i32⟩
  | .hbm, ⟨52, _⟩ => ⟨S500000, .i1⟩
  | .hbm, ⟨53, _⟩ => ⟨S_, .i32⟩
  | .hbm, ⟨54, _⟩ => ⟨S500000, .i32⟩
  | .hbm, ⟨55, _⟩ => ⟨S500000, .i32⟩
  | .hbm, ⟨56, _⟩ => ⟨S500000, .i32⟩
  | .hbm, ⟨57, _⟩ => ⟨S500000x1, .i32⟩
  | .hbm, ⟨58, _⟩ => ⟨S500000x128, .f32⟩
  | .hbm, ⟨59, _⟩ => ⟨S1x128x128, .f32⟩
  | .hbm, ⟨60, _⟩ => ⟨S128x128, .f32⟩
  | .hbm, ⟨61, _⟩ => ⟨S500000x128, .f32⟩
  | .hbm, ⟨62, _⟩ => ⟨S_, .f32⟩
  | .hbm, ⟨63, _⟩ => ⟨S50000x128, .f32⟩
  | .hbm, ⟨64, _⟩ => ⟨S500000x1, .i32⟩
  | .hbm, ⟨65, _⟩ => ⟨S50000x128, .f32⟩
  | .hbm, ⟨66, _⟩ => ⟨S1x128x128, .f32⟩
  | .hbm, ⟨67, _⟩ => ⟨S128x128, .f32⟩
  | .hbm, ⟨68, _⟩ => ⟨S1x128x128, .f32⟩
  | .hbm, ⟨69, _⟩ => ⟨S128x128, .f32⟩
  | .hbm, ⟨70, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S5000x128, .f32⟩
  | .local _ .vmem, ⟨6, _⟩ => ⟨S5000x128, .f32⟩
  | .local _ .vmem, ⟨7, _⟩ => ⟨S2000x128, .f32⟩
  | .local _ .vmem, ⟨8, _⟩ => ⟨S2000x128, .f32⟩
  | .local _ .vmem, ⟨9, _⟩ => ⟨S2000x1, .f32⟩
  | .local _ .vmem, ⟨10, _⟩ => ⟨S2000x1, .f32⟩
  | .local _ .vmem, ⟨11, _⟩ => ⟨S2000x128, .f32⟩
  | .local _ .vmem, ⟨12, _⟩ => ⟨S2000x128, .f32⟩
  | .local _ .vmem, ⟨13, _⟩ => ⟨S2000x1, .f32⟩
  | .local _ .vmem, ⟨14, _⟩ => ⟨S2000x1, .f32⟩
  | .local _ .vmem, ⟨15, _⟩ => ⟨S128x128, .f32⟩
  | .local _ .vmem, ⟨16, _⟩ => ⟨S128x128, .f32⟩
  | .local _ .vmem, ⟨17, _⟩ => ⟨S2000x128, .f32⟩
  | .local _ .vmem, ⟨18, _⟩ => ⟨S2000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S128x128, .f32⟩
  | .local _ .vmem, ⟨24, _⟩ => ⟨S5000x128, .f32⟩
  | .local _ .vmem, ⟨25, _⟩ => ⟨S5000x128, .f32⟩
  | .local _ .vmem, ⟨26, _⟩ => ⟨S2000x128, .f32⟩
  | .local _ .vmem, ⟨27, _⟩ => ⟨S2000x128, .f32⟩
  | .local _ .vmem, ⟨28, _⟩ => ⟨S2000x1, .f32⟩
  | .local _ .vmem, ⟨29, _⟩ => ⟨S2000x1, .f32⟩
  | .local _ .vmem, ⟨30, _⟩ => ⟨S2000x128, .f32⟩
  | .local _ .vmem, ⟨31, _⟩ => ⟨S2000x128, .f32⟩
  | .local _ .vmem, ⟨32, _⟩ => ⟨S2000x1, .f32⟩
  | .local _ .vmem, ⟨33, _⟩ => ⟨S2000x1, .f32⟩
  | .local _ .vmem, ⟨34, _⟩ => ⟨S128x128, .f32⟩
  | .local _ .vmem, ⟨35, _⟩ => ⟨S128x128, .f32⟩
  | .local _ .vmem, ⟨36, _⟩ => ⟨S2000x128, .f32⟩
  | .local _ .vmem, ⟨37, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_c : Ref sig .tc := ⟨.hbm, 20, rfl⟩
abbrev main_v8 : Ref sig .tc := ⟨.hbm, 21, rfl⟩
abbrev main_v9 : Ref sig .tc := ⟨.hbm, 22, rfl⟩
abbrev main_c_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_c_3 : Ref sig .tc := ⟨.hbm, 29, rfl⟩
abbrev main_v15 : Ref sig .tc := ⟨.hbm, 30, rfl⟩
abbrev main_v16 : Ref sig .tc := ⟨.hbm, 31, rfl⟩
abbrev main_c_4 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_5 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_6 : Ref sig .tc := ⟨.hbm, 50, rfl⟩
abbrev main_v33 : Ref sig .tc := ⟨.hbm, 51, rfl⟩
abbrev main_v34 : Ref sig .tc := ⟨.hbm, 52, rfl⟩
abbrev main_c_7 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_8 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg6_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg1_1 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg3_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg1_1 : Ref sig .tc := ⟨.vmem, 29, rfl⟩
abbrev cc3_stg2_0 : Ref sig .tc := ⟨.vmem, 30, rfl⟩
abbrev cc3_stg2_1 : Ref sig .tc := ⟨.vmem, 31, rfl⟩
abbrev cc3_stg3_0 : Ref sig .tc := ⟨.vmem, 32, rfl⟩
abbrev cc3_stg3_1 : Ref sig .tc := ⟨.vmem, 33, rfl⟩
abbrev cc3_stg4_0 : Ref sig .tc := ⟨.vmem, 34, rfl⟩
abbrev cc3_stg5_0 : Ref sig .tc := ⟨.vmem, 35, rfl⟩
abbrev cc3_stg6_0 : Ref sig .tc := ⟨.vmem, 36, rfl⟩
abbrev cc3_stg6_1 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem3_1 : DmaSem sig := 14
abbrev cc1_sem4_0 : DmaSem sig := 15
abbrev cc1_sem5_0 : DmaSem sig := 16
abbrev cc1_sem6_0 : DmaSem sig := 17
abbrev cc1_sem6_1 : DmaSem sig := 18
abbrev cc2_sem0_0 : DmaSem sig := 19
abbrev cc2_sem0_1 : DmaSem sig := 20
abbrev cc2_sem1_0 : DmaSem sig := 21
abbrev cc2_sem1_1 : DmaSem sig := 22
abbrev cc2_sem2_0 : DmaSem sig := 23
abbrev cc2_sem3_0 : DmaSem sig := 24
abbrev cc2_sem3_1 : DmaSem sig := 25
abbrev cc3_sem0_0 : DmaSem sig := 26
abbrev cc3_sem0_1 : DmaSem sig := 27
abbrev cc3_sem1_0 : DmaSem sig := 28
abbrev cc3_sem1_1 : DmaSem sig := 29
abbrev cc3_sem2_0 : DmaSem sig := 30
abbrev cc3_sem2_1 : DmaSem sig := 31
abbrev cc3_sem3_0 : DmaSem sig := 32
abbrev cc3_sem3_1 : DmaSem sig := 33
abbrev cc3_sem4_0 : DmaSem sig := 34
abbrev cc3_sem5_0 : DmaSem sig := 35
abbrev cc3_sem6_0 : DmaSem sig := 36
abbrev cc3_sem6_1 : DmaSem sig := 37

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S2000x1 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 1 → Memref sig .tc .vmem S128x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S2000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

class Facts₀ : Prop where
  bcast_S_S500000 : S_.BroadcastsInDim S500000 (![] : Fin 0 → Fin S500000.rank)
  bcast_S_S50000 : S_.BroadcastsInDim S50000 (![] : Fin 0 → Fin S50000.rank)
  bcast_S500000_S500000x1_0 : S500000.BroadcastsInDim S500000x1 (![0] : Fin 1 → Fin S500000x1.rank)
  bcast_S50000_S50000x1_0 : S50000.BroadcastsInDim S50000x1 (![0] : Fin 1 → Fin S50000x1.rank)
  slices_S2x128x128_S1x128x128_0_0_0 : S2x128x128.Slices ![0, 0, 0] S1x128x128
  shapeCasts_S1x128x128_S128x128 : S1x128x128.ShapeCasts S128x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S_S50000x128 : S_.BroadcastsInDim S50000x128 (![] : Fin 0 → Fin S50000x128.rank)
  inb_S2000x128_S2000x128_0_0 : ∀ a, (![0, 0] : Fin 2 → Nat) a + S2000x128.size a ≤ S2000x128.size a
  h_S2000x128 : 0 < S2000x128.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  shapeCasts_S2000x128_S2000x128 : S2000x128.ShapeCasts S2000x128
  slices_S2x128x128_S1x128x128_1_0_0 : S2x128x128.Slices ![1, 0, 0] S1x128x128
  scatter_S50000_S500000x1_S500000_n_0_0_1_wf : ScatterDims.WF S50000 S500000x1 S500000 [] [0] [0] 1
  gather_S200x128_S500000x1_S500000x128_1_0_n_n_0_1_1128_wf : GatherDims.WF S200x128 S500000x1 S500000x128 [1] [0] [] [0] [] 1 ![1, 128]
  gather_S50000x128_S500000x1_S500000x128_1_0_n_n_0_1_1128_wf : GatherDims.WF S50000x128 S500000x1 S500000x128 [1] [0] [] [0] [] 1 ![1, 128]
  dot_S5000x128_S128x128_S5000x128_1_0_0_1_n_n_wf : DotDims.WF S5000x128 S128x128 S5000x128 [1] [0] [0] [1] [] []
  scatter_S50000x128_S500000x1_S500000x128_1_0_0_1_wf : ScatterDims.WF S50000x128 S500000x1 S500000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S500000x128.size a
  hwx0_0 : ∀ i : grid0.Coords, EltTy.bits .f32 = 32 ∨ (Rect.block (s := S500000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S500000x128.size a
  hwx0_1 : ∀ i : grid0.Coords, EltTy.bits .f32 = 32 ∨ (Rect.block (s := S500000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S500000x128.size a
  hwx0_3 : ∀ i : grid0.Coords, EltTy.bits .f32 = 32 ∨ (Rect.block (s := S500000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S50000x1.size a
  hwx1_1 : ∀ i : grid1.Coords, EltTy.bits .f32 = 32 ∨ (Rect.block (s := S50000x1) S2000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S50000x128.size a
  hwx1_2 : ∀ i : grid1.Coords, EltTy.bits .f32 = 32 ∨ (Rect.block (s := S50000x128) S2000x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x1.size a ≤ S50000x1.size a
  hwx1_3 : ∀ i : grid1.Coords, EltTy.bits .f32 = 32 ∨ (Rect.block (s := S50000x1) S2000x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x128.size a ≤ S50000x128.size a
  hwx1_6 : ∀ i : grid1.Coords, EltTy.bits .f32 = 32 ∨ (Rect.block (s := S50000x128) S2000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S500000x128.size a
  hwx2_0 : ∀ i : grid2.Coords, EltTy.bits .f32 = 32 ∨ (Rect.block (s := S500000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S500000x128.size a
  hwx2_1 : ∀ i : grid2.Coords, EltTy.bits .f32 = 32 ∨ (Rect.block (s := S500000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S500000x128.size a
  hwx2_3 : ∀ i : grid2.Coords, EltTy.bits .f32 = 32 ∨ (Rect.block (s := S500000x128) S5000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x1.size a ≤ S50000x1.size a
  hwx3_1 : ∀ i : grid3.Coords, EltTy.bits .f32 = 32 ∨ (Rect.block (s := S50000x1) S2000x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x128.size a ≤ S50000x128.size a
  hwx3_2 : ∀ i : grid3.Coords, EltTy.bits .f32 = 32 ∨ (Rect.block (s := S50000x128) S2000x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x1.size a ≤ S50000x1.size a
  hwx3_3 : ∀ i : grid3.Coords, EltTy.bits .f32 = 32 ∨ (Rect.block (s := S50000x1) S2000x1.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S128x128.size a
  hwx3_4 : ∀ i : grid3.Coords, EltTy.bits .f32 = 32 ∨ (Rect.block (s := S128x128) S128x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128x128.size a ≤ S128x128.size a
  hwx3_5 : ∀ i : grid3.Coords, EltTy.bits .f32 = 32 ∨ (Rect.block (s := S128x128) S128x128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S2000x128.size a ≤ S50000x128.size a
  hwx3_6 : ∀ i : grid3.Coords, EltTy.bits .f32 = 32 ∨ (Rect.block (s := S50000x128) S2000x128.size (cc3_transform_6 i) (hinb3_6 i)).WholeWords (EltTy.packing .f32)

variable [Facts₀]

def scatter_S50000_S500000x1_S500000_n_0_0_1 : ScatterDims S50000 S500000x1 S500000 where
  updateWindowDims := []
  insertedWindowDims := [0]
  scatterDimsToOperandDims := [0]
  indexVectorDim := 1
  wf := scatter_S50000_S500000x1_S500000_n_0_0_1_wf
def gather_S200x128_S500000x1_S500000x128_1_0_n_n_0_1_1128 : GatherDims S200x128 S500000x1 S500000x128 where
  offsetDims := [1]
  collapsedSliceDims := [0]
  operandBatchingDims := []
  startIndicesBatchingDims := []
  startIndexMap := [0]
  indexVectorDim := 1
  sliceSizes := ![1, 128]
  wf := gather_S200x128_S500000x1_S500000x128_1_0_n_n_0_1_1128_wf
def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S50000x128_S500000x1_S500000x128_1_0_0_1 : ScatterDims S50000x128 S500000x1 S500000x128 where
  updateWindowDims := [1]
  insertedWindowDims := [0]
  scatterDimsToOperandDims := [0]
  indexVectorDim := 1
  wf := scatter_S50000x128_S500000x1_S500000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_v21) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v24) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v27) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg0) S2000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v7) S2000x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v29) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v31) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v32) S2000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v39) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v14) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v41) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v42) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v45) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg2) S2000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v32) S2000x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v7) S2000x1.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v47) S128x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v49) S128x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v50) S2000x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

class Facts : Prop extends Facts₀ where

variable [Facts]
-- ==== ReferenceIdeal.lean ====
abbrev S50000x128 : Shape := ⟨2, ![50000, 128]⟩
abbrev S200x128 : Shape := ⟨2, ![200, 128]⟩
abbrev S50000x1 : Shape := ⟨2, ![50000, 1]⟩
abbrev S2x128x128 : Shape := ⟨3, ![2, 128, 128]⟩
abbrev S500000 : Shape := ⟨1, ![500000]⟩
abbrev S_ : Shape := ⟨0, ![]⟩
abbrev S50000 : Shape := ⟨1, ![50000]⟩
abbrev S500000x1 : Shape := ⟨2, ![500000, 1]⟩
abbrev S500000x128 : Shape := ⟨2, ![500000, 128]⟩
abbrev S1x128x128 : Shape := ⟨3, ![1, 128, 128]⟩
abbrev S128x128 : Shape := ⟨2, ![128, 128]⟩

abbrev nBuf : Space → Nat
  | .hbm => 107
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S200x128, .f32⟩
  | .hbm, ⟨2, _⟩ => ⟨S50000x1, .f32⟩
  | .hbm, ⟨3, _⟩ => ⟨S2x128x128, .f32⟩
  | .hbm, ⟨4, _⟩ => ⟨S2x128x128, .f32⟩
  | .hbm, ⟨5, _⟩ => ⟨S2x128x128, .f32⟩
  | .hbm, ⟨6, _⟩ => ⟨S500000, .i32⟩
  | .hbm, ⟨7, _⟩ => ⟨S500000, .i32⟩
  | .hbm, ⟨8, _⟩ => ⟨S500000, .i32⟩
  | .hbm, ⟨9, _⟩ => ⟨S_, .f32⟩
  | .hbm, ⟨10, _⟩ => ⟨S500000, .f32⟩
  | .hbm, ⟨11, _⟩ => ⟨S_, .f32⟩
  | .hbm, ⟨12, _⟩ => ⟨S50000, .f32⟩
  | .hbm, ⟨13, _⟩ => ⟨S500000x1, .i32⟩
  | .hbm, ⟨14, _⟩ => ⟨S50000, .f32⟩
  | .hbm, ⟨15, _⟩ => ⟨S_, .f32⟩
  | .hbm, ⟨16, _⟩ => ⟨S50000, .f32⟩
  | .hbm, ⟨17, _⟩ => ⟨S50000, .i1⟩
  | .hbm, ⟨18, _⟩ => ⟨S50000x1, .i1⟩
  | .hbm, ⟨19, _⟩ => ⟨S_, .i32⟩
  | .hbm, ⟨20, _⟩ => ⟨S500000, .i32⟩
  | .hbm, ⟨21, _⟩ => ⟨S500000, .i1⟩
  | .hbm, ⟨22, _⟩ => ⟨S_, .i32⟩
  | .hbm, ⟨23, _⟩ => ⟨S500000, .i32⟩
  | .hbm, ⟨24, _⟩ => ⟨S500000, .i32⟩
  | .hbm, ⟨25, _⟩ => ⟨S500000, .i32⟩
  | .hbm, ⟨26, _⟩ => ⟨S500000x1, .i32⟩
  | .hbm, ⟨27, _⟩ => ⟨S500000x128, .f32⟩
  | .hbm, ⟨28, _⟩ => ⟨S_, .i32⟩
  | .hbm, ⟨29, _⟩ => ⟨S500000, .i32⟩
  | .hbm, ⟨30, _⟩ => ⟨S500000, .i1⟩
  | .hbm, ⟨31, _⟩ => ⟨S_, .i32⟩
  | .hbm, ⟨32, _⟩ => ⟨S500000, .i32⟩
  | .hbm, ⟨33, _⟩ => ⟨S500000, .i32⟩
  | .hbm, ⟨34, _⟩ => ⟨S500000, .i32⟩
  | .hbm, ⟨35, _⟩ => ⟨S500000x1, .i32⟩
  | .hbm, ⟨36, _⟩ => ⟨S500000x128, .f32⟩
  | .hbm, ⟨37, _⟩ => ⟨S500000x128, .f32⟩
  | .hbm, ⟨38, _⟩ => ⟨S1x128x128, .f32⟩
  | .hbm, ⟨39, _⟩ => ⟨S128x128, .f32⟩
  | .hbm, ⟨40, _⟩ => ⟨S500000x128, .f32⟩
  | .hbm, ⟨41, _⟩ => ⟨S_, .f32⟩
  | .hbm, ⟨42, _⟩ => ⟨S50000x128, .f32⟩
  | .hbm, ⟨43, _⟩ => ⟨S500000x1, .i32⟩
  | .hbm, ⟨44, _⟩ => ⟨S50000x128, .f32⟩
  | .hbm, ⟨45, _⟩ => ⟨S50000x128, .f32⟩
  | .hbm, ⟨46, _⟩ => ⟨S50000x128, .f32⟩
  | .hbm, ⟨47, _⟩ => ⟨S1x128x128, .f32⟩
  | .hbm, ⟨48, _⟩ => ⟨S128x128, .f32⟩
  | .hbm, ⟨49, _⟩ => ⟨S50000x128, .f32⟩
  | .hbm, ⟨50, _⟩ => ⟨S1x128x128, .f32⟩
  | .hbm, ⟨51, _⟩ => ⟨S128x128, .f32⟩
  | .hbm, ⟨52, _⟩ => ⟨S50000x128, .f32⟩
  | .hbm, ⟨53, _⟩ => ⟨S50000x128, .i1⟩
  | .hbm, ⟨54, _⟩ => ⟨S50000x128, .f32⟩
  | .hbm, ⟨55, _⟩ => ⟨S50000x128, .f32⟩
  | .hbm, ⟨56, _⟩ => ⟨S_, .f32⟩
  | .hbm, ⟨57, _⟩ => ⟨S50000x128, .f32⟩
  | .hbm, ⟨58, _⟩ => ⟨S50000x128, .i1⟩
  | .hbm, ⟨59, _⟩ => ⟨S_, .f32⟩
  | .hbm, ⟨60, _⟩ => ⟨S50000x128, .f32⟩
  | .hbm, ⟨61, _⟩ => ⟨S50000x128, .f32⟩
  | .hbm, ⟨62, _⟩ => ⟨S50000x128, .f32⟩
  | .hbm, ⟨63, _⟩ => ⟨S_, .i32⟩
  | .hbm, ⟨64, _⟩ => ⟨S500000, .i32⟩
  | .hbm, ⟨65, _⟩ => ⟨S500000, .i1⟩
  | .hbm, ⟨66, _⟩ => ⟨S_, .i32⟩
  | .hbm, ⟨67, _⟩ => ⟨S500000, .i32⟩
  | .hbm, ⟨68, _⟩ => ⟨S500000, .i32⟩
  | .hbm, ⟨69, _⟩ => ⟨S500000, .i32⟩
  | .hbm, ⟨70, _⟩ => ⟨S500000x1, .i32⟩
  | .hbm, ⟨71, _⟩ => ⟨S500000x128, .f32⟩
  | .hbm, ⟨72, _⟩ => ⟨S_, .i32⟩
  | .hbm, ⟨73, _⟩ => ⟨S500000, .i32⟩
  | .hbm, ⟨74, _⟩ => ⟨S500000, .i1⟩
  | .hbm, ⟨75, _⟩ => ⟨S_, .i32⟩
  | .hbm, ⟨76, _⟩ => ⟨S500000, .i32⟩
  | .hbm, ⟨77, _⟩ => ⟨S500000, .i32⟩
  | .hbm, ⟨78, _⟩ => ⟨S500000, .i32⟩
  | .hbm, ⟨79, _⟩ => ⟨S500000x1, .i32⟩
  | .hbm, ⟨80, _⟩ => ⟨S500000x128, .f32⟩
  | .hbm, ⟨81, _⟩ => ⟨S500000x128, .f32⟩
  | .hbm, ⟨82, _⟩ => ⟨S1x128x128, .f32⟩
  | .hbm, ⟨83, _⟩ => ⟨S128x128, .f32⟩
  | .hbm, ⟨84, _⟩ => ⟨S500000x128, .f32⟩
  | .hbm, ⟨85, _⟩ => ⟨S_, .f32⟩
  | .hbm, ⟨86, _⟩ => ⟨S50000x128, .f32⟩
  | .hbm, ⟨87, _⟩ => ⟨S500000x1, .i32⟩
  | .hbm, ⟨88, _⟩ => ⟨S50000x128, .f32⟩
  | .hbm, ⟨89, _⟩ => ⟨S50000x128, .f32⟩
  | .hbm, ⟨90, _⟩ => ⟨S50000x128, .f32⟩
  | .hbm, ⟨91, _⟩ => ⟨S1x128x128, .f32⟩
  | .hbm, ⟨92, _⟩ => ⟨S128x128, .f32⟩
  | .hbm, ⟨93, _⟩ => ⟨S50000x128, .f32⟩
  | .hbm, ⟨94, _⟩ => ⟨S1x128x128, .f32⟩
  | .hbm, ⟨95, _⟩ => ⟨S128x128, .f32⟩
  | .hbm, ⟨96, _⟩ => ⟨S50000x128, .f32⟩
  | .hbm, ⟨97, _⟩ => ⟨S50000x128, .i1⟩
  | .hbm, ⟨98, _⟩ => ⟨S50000x128, .f32⟩
  | .hbm, ⟨99, _⟩ => ⟨S50000x128, .f32⟩
  | .hbm, ⟨100, _⟩ => ⟨S_, .f32⟩
  | .hbm, ⟨101, _⟩ => ⟨S50000x128, .f32⟩
  | .hbm, ⟨102, _⟩ => ⟨S50000x128, .i1⟩
  | .hbm, ⟨103, _⟩ => ⟨S_, .f32⟩
  | .hbm, ⟨104, _⟩ => ⟨S50000x128, .f32⟩
  | .hbm, ⟨105, _⟩ => ⟨S50000x128, .f32⟩
  | .hbm, ⟨106, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_c : Ref sig .tc := ⟨.hbm, 19, rfl⟩
abbrev main_v7 : Ref sig .tc := ⟨.hbm, 20, rfl⟩
abbrev main_v8 : Ref sig .tc := ⟨.hbm, 21, rfl⟩
abbrev main_c_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_c_3 : Ref sig .tc := ⟨.hbm, 28, rfl⟩
abbrev main_v14 : Ref sig .tc := ⟨.hbm, 29, rfl⟩
abbrev main_v15 : Ref sig .tc := ⟨.hbm, 30, rfl⟩
abbrev main_c_4 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_5 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_call0_v0 : Ref sig .tc := ⟨.hbm, 53, rfl⟩
abbrev main_v36 : Ref sig .tc := ⟨.hbm, 54, rfl⟩
abbrev main_v37 : Ref sig .tc := ⟨.hbm, 55, rfl⟩
abbrev main_cst_6 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_c_8 : Ref sig .tc := ⟨.hbm, 63, rfl⟩
abbrev main_v43 : Ref sig .tc := ⟨.hbm, 64, rfl⟩
abbrev main_v44 : Ref sig .tc := ⟨.hbm, 65, rfl⟩
abbrev main_c_9 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_c_10 : Ref sig .tc := ⟨.hbm, 72, rfl⟩
abbrev main_v50 : Ref sig .tc := ⟨.hbm, 73, rfl⟩
abbrev main_v51 : Ref sig .tc := ⟨.hbm, 74, rfl⟩
abbrev main_c_11 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_12 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_call2_v0 : Ref sig .tc := ⟨.hbm, 97, rfl⟩
abbrev main_v72 : Ref sig .tc := ⟨.hbm, 98, rfl⟩
abbrev main_v73 : Ref sig .tc := ⟨.hbm, 99, rfl⟩
abbrev main_cst_13 : Ref sig .tc := ⟨.hbm, 100, rfl⟩
abbrev main_v74 : Ref sig .tc := ⟨.hbm, 101, rfl⟩
abbrev main_v75 : Ref sig .tc := ⟨.hbm, 102, rfl⟩
abbrev main_cst_14 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩

abbrev nD : Nat := 1
abbrev τ : Topo := Topo.v7x

variable {F : FTy → Type} [FloatOps F]

class Facts₀ : Prop where
  bcast_S_S500000 : S_.BroadcastsInDim S500000 (![] : Fin 0 → Fin S500000.rank)
  bcast_S_S50000 : S_.BroadcastsInDim S50000 (![] : Fin 0 → Fin S50000.rank)
  bcast_S500000_S500000x1_0 : S500000.BroadcastsInDim S500000x1 (![0] : Fin 1 → Fin S500000x1.rank)
  bcast_S50000_S50000x1_0 : S50000.BroadcastsInDim S50000x1 (![0] : Fin 1 → Fin S50000x1.rank)
  slices_S2x128x128_S1x128x128_0_0_0 : S2x128x128.Slices ![0, 0, 0] S1x128x128
  shapeCasts_S1x128x128_S128x128 : S1x128x128.ShapeCasts S128x128
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  slices_S2x128x128_S1x128x128_1_0_0 : S2x128x128.Slices ![1, 0, 0] S1x128x128
  scatter_S50000_S500000x1_S500000_n_0_0_1_wf : ScatterDims.WF S50000 S500000x1 S500000 [] [0] [0] 1
  gather_S50000x128_S500000x1_S500000x128_1_0_n_n_0_1_1128_wf : GatherDims.WF S50000x128 S500000x1 S500000x128 [1] [0] [] [0] [] 1 ![1, 128]
  gather_S200x128_S500000x1_S500000x128_1_0_n_n_0_1_1128_wf : GatherDims.WF S200x128 S500000x1 S500000x128 [1] [0] [] [0] [] 1 ![1, 128]
  dot_S500000x128_S128x128_S500000x128_1_0_0_1_n_n_wf : DotDims.WF S500000x128 S128x128 S500000x128 [1] [0] [0] [1] [] []
  scatter_S50000x128_S500000x1_S500000x128_1_0_0_1_wf : ScatterDims.WF S50000x128 S500000x1 S500000x128 [1] [0] [0] 1
  dot_S50000x128_S128x128_S50000x128_1_0_0_1_n_n_wf : DotDims.WF S50000x128 S128x128 S50000x128 [1] [0] [0] [1] [] []

variable [Facts₀]

def scatter_S50000_S500000x1_S500000_n_0_0_1 : ScatterDims S50000 S500000x1 S500000 where
  updateWindowDims := []
  insertedWindowDims := [0]
  scatterDimsToOperandDims := [0]
  indexVectorDim := 1
  wf := scatter_S50000_S500000x1_S500000_n_0_0_1_wf
def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def gather_S200x128_S500000x1_S500000x128_1_0_n_n_0_1_1128 : GatherDims S200x128 S500000x1 S500000x128 where
  offsetDims := [1]
  collapsedSliceDims := [0]
  operandBatchingDims := []
  startIndicesBatchingDims := []
  startIndexMap := [0]
  indexVectorDim := 1
  sliceSizes := ![1, 128]
  wf := gather_S200x128_S500000x1_S500000x128_1_0_n_n_0_1_1128_wf
def dot_S500000x128_S128x128_S500000x128_1_0_0_1_n_n : DotDims S500000x128 S128x128 S500000x128 where
  lhsContracting := [1]
  rhsContracting := [0]
  lhsNonContracting := [0]
  rhsNonContracting := [1]
  lhsBatch := []
  rhsBatch := []
  wf := dot_S500000x128_S128x128_S500000x128_1_0_0_1_n_n_wf
def scatter_S50000x128_S500000x1_S500000x128_1_0_0_1 : ScatterDims S50000x128 S500000x1 S500000x128 where
  updateWindowDims := [1]
  insertedWindowDims := [0]
  scatterDimsToOperandDims := [0]
  indexVectorDim := 1
  wf := scatter_S50000x128_S500000x1_S500000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.HostCarry.lean ====
import proofs.«123888_j49624052138542_1_alg».proof.Proof.KernelIdealFrame

set_option maxRecDepth 16384

noncomputable section

namespace Cert.KernelIdeal.Carry

open Cert.KernelIdeal Cert.KernelIdeal.Gen Cert.KernelIdeal.GenP
open Idealize.ShloMosaic Idealize.ShloMosaic.TcCoe Idealize.SL.Sem
open Idealize.ShloMosaic.Pipeline (Dat Cfg Window)

variable {F : FTy → Type} [FloatOps F]
variable (m : (ℓ : Loc nD τ sig) → Buf (Elt F) ℓ) (ρ : Dev nD → PrngReg) (c : Dev nD)

/-- A host stretch leaves a buffer none of its operations writes as it was: each operation writes one buffer, and the
    references are told apart by computation. -/
local syntax "skip_host " ident term : tactic
local macro_rules
  | `(tactic| skip_host $ops $b) => `(tactic|
      exact StableHlo.after_of_forall_not_mem (b := Proc.devRef .tc $b) _ _ (List.forall_iff_forall_mem.mp (by
        simp only [$ops:ident, List.flatten_cons, List.flatten_nil, List.append_nil, List.cons_append,
          List.nil_append, List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))

/-! ## A host stretch does not write the buffer -/
theorem h1_arg0 : W1 m ρ c (Proc.devRef .tc main_arg0) = W0 m ρ c (Proc.devRef .tc main_arg0) := by skip_host hostOps0 main_arg0
theorem h1_arg2 : W1 m ρ c (Proc.devRef .tc main_arg2) = W0 m ρ c (Proc.devRef .tc main_arg2) := by skip_host hostOps0 main_arg2
theorem h1_arg3 : W1 m ρ c (Proc.devRef .tc main_arg3) = W0 m ρ c (Proc.devRef .tc main_arg3) := by skip_host hostOps0 main_arg3
theorem h1_arg4 : W1 m ρ c (Proc.devRef .tc main_arg4) = W0 m ρ c (Proc.devRef .tc main_arg4) := by skip_host hostOps0 main_arg4
theorem h1_arg5 : W1 m ρ c (Proc.devRef .tc main_arg5) = W0 m ρ c (Proc.devRef .tc main_arg5) := by skip_host hostOps0 main_arg5
theorem h1_arg6 : W1 m ρ c (Proc.devRef .tc main_arg6) = W0 m ρ c (Proc.devRef .tc main_arg6) := by skip_host hostOps0 main_arg6
theorem h1_arg7 : W1 m ρ c (Proc.devRef .tc main_arg7) = W0 m ρ c (Proc.devRef .tc main_arg7) := by skip_host hostOps0 main_arg7
theorem h3_arg0 : W3 m ρ c (Proc.devRef .tc main_arg0) = W2 m ρ c (Proc.devRef .tc main_arg0) := by skip_host hostOps1 main_arg0
theorem h3_arg2 : W3 m ρ c (Proc.devRef .tc main_arg2) = W2 m ρ c (Proc.devRef .tc main_arg2) := by skip_host hostOps1 main_arg2
theorem h3_arg3 : W3 m ρ c (Proc.devRef .tc main_arg3) = W2 m ρ c (Proc.devRef .tc main_arg3) := by skip_host hostOps1 main_arg3
theorem h3_arg4 : W3 m ρ c (Proc.devRef .tc main_arg4) = W2 m ρ c (Proc.devRef .tc main_arg4) := by skip_host hostOps1 main_arg4
theorem h3_arg5 : W3 m ρ c (Proc.devRef .tc main_arg5) = W2 m ρ c (Proc.devRef .tc main_arg5) := by skip_host hostOps1 main_arg5
theorem h3_arg6 : W3 m ρ c (Proc.devRef .tc main_arg6) = W2 m ρ c (Proc.devRef .tc main_arg6) := by skip_host hostOps1 main_arg6
theorem h3_arg7 : W3 m ρ c (Proc.devRef .tc main_arg7) = W2 m ρ c (Proc.devRef .tc main_arg7) := by skip_host hostOps1 main_arg7
theorem h3_v7 : W3 m ρ c (Proc.devRef .tc main_v7) = W2 m ρ c (Proc.devRef .tc main_v7) := by skip_host hostOps1 main_v7
theorem h3_v14 : W3 m ρ c (Proc.devRef .tc main_v14) = W2 m ρ c (Proc.devRef .tc main_v14) := by skip_host hostOps1 main_v14
theorem h5_arg2 : W5 m ρ c (Proc.devRef .tc main_arg2) = W4 m ρ c (Proc.devRef .tc main_arg2) := by skip_host hostOps2 main_arg2
theorem h5_arg4 : W5 m ρ c (Proc.devRef .tc main_arg4) = W4 m ρ c (Proc.devRef .tc main_arg4) := by skip_host hostOps2 main_arg4
theorem h5_arg5 : W5 m ρ c (Proc.devRef .tc main_arg5) = W4 m ρ c (Proc.devRef .tc main_arg5) := by skip_host hostOps2 main_arg5
theorem h5_arg7 : W5 m ρ c (Proc.devRef .tc main_arg7) = W4 m ρ c (Proc.devRef .tc main_arg7) := by skip_host hostOps2 main_arg7
theorem h5_v7 : W5 m ρ c (Proc.devRef .tc main_v7) = W4 m ρ c (Proc.devRef .tc main_v7) := by skip_host hostOps2 main_v7
theorem h5_v14 : W5 m ρ c (Proc.devRef .tc main_v14) = W4 m ρ c (Proc.devRef .tc main_v14) := by skip_host hostOps2 main_v14
theorem h5_v32 : W5 m ρ c (Proc.devRef .tc main_v32) = W4 m ρ c (Proc.devRef .tc main_v32) := by skip_host hostOps2 main_v32
theorem h7_arg2 : W7 m ρ c (Proc.devRef .tc main_arg2) = W6 m ρ c (Proc.devRef .tc main_arg2) := by skip_host hostOps3 main_arg2
theorem h7_v7 : W7 m ρ c (Proc.devRef .tc main_v7) = W6 m ρ c (Proc.devRef .tc main_v7) := by skip_host hostOps3 main_v7
theorem h7_v32 : W7 m ρ c (Proc.devRef .tc main_v32) = W6 m ρ c (Proc.devRef .tc main_v32) := by skip_host hostOps3 main_v32

/-! ## A region does not own the buffer -/
theorem r2_arg0 : W2 m ρ c (Proc.devRef .tc main_arg0) = W1 m ρ c (Proc.devRef .tc main_arg0) := W2_of_ne m ρ c main_arg0 (by decide)
theorem r2_arg2 : W2 m ρ c (Proc.devRef .tc main_arg2) = W1 m ρ c (Proc.devRef .tc main_arg2) := W2_of_ne m ρ c main_arg2 (by decide)
theorem r2_arg3 : W2 m ρ c (Proc.devRef .tc main_arg3) = W1 m ρ c (Proc.devRef .tc main_arg3) := W2_of_ne m ρ c main_arg3 (by decide)
theorem r2_arg4 : W2 m ρ c (Proc.devRef .tc main_arg4) = W1 m ρ c (Proc.devRef .tc main_arg4) := W2_of_ne m ρ c main_arg4 (by decide)
theorem r2_arg5 : W2 m ρ c (Proc.devRef .tc main_arg5) = W1 m ρ c (Proc.devRef .tc main_arg5) := W2_of_ne m ρ c main_arg5 (by decide)
theorem r2_arg6 : W2 m ρ c (Proc.devRef .tc main_arg6) = W1 m ρ c (Proc.devRef .tc main_arg6) := W2_of_ne m ρ c main_arg6 (by decide)
theorem r2_arg7 : W2 m ρ c (Proc.devRef .tc main_arg7) = W1 m ρ c (Proc.devRef .tc main_arg7) := W2_of_ne m ρ c main_arg7 (by decide)
theorem r2_v7 : W2 m ρ c (Proc.devRef .tc main_v7) = W1 m ρ c (Proc.devRef .tc main_v7) := W2_of_ne m ρ c main_v7 (by decide)
theorem r4_arg3 : W4 m ρ c (Proc.devRef .tc main_arg3) = W3 m ρ c (Proc.devRef .tc main_arg3) := W4_of_ne m ρ c main_arg3 (by decide)
theorem r4_arg4 : W4 m ρ c (Proc.devRef .tc main_arg4) = W3 m ρ c (Proc.devRef .tc main_arg4) := W4_of_ne m ρ c main_arg4 (by decide)
theorem r4_arg5 : W4 m ρ c (Proc.devRef .tc main_arg5) = W3 m ρ c (Proc.devRef .tc main_arg5) := W4_of_ne m ρ c main_arg5 (by decide)
theorem r4_arg6 : W4 m ρ c (Proc.devRef .tc main_arg6) = W3 m ρ c (Proc.devRef .tc main_arg6) := W4_of_ne m ρ c main_arg6 (by decide)
theorem r4_arg7 : W4 m ρ c (Proc.devRef .tc main_arg7) = W3 m ρ c (Proc.devRef .tc main_arg7) := W4_of_ne m ρ c main_arg7 (by decide)
theorem r4_v14 : W4 m ρ c (Proc.devRef .tc main_v14) = W3 m ρ c (Proc.devRef .tc main_v14) := W4_of_ne m ρ c main_v14 (by decide)
theorem r6_arg2 : W6 m ρ c (Proc.devRef .tc main_arg2) = W5 m ρ c (Proc.devRef .tc main_arg2) := W6_of_ne m ρ c main_arg2 (by decide)
theorem r6_arg4 : W6 m ρ c (Proc.devRef .tc main_arg4) = W5 m ρ c (Proc.devRef .tc main_arg4) := W6_of_ne m ρ c main_arg4 (by decide)
theorem r6_arg5 : W6 m ρ c (Proc.devRef .tc main_arg5) = W5 m ρ c (Proc.devRef .tc main_arg5) := W6_of_ne m ρ c main_arg5 (by decide)
theorem r6_arg7 : W6 m ρ c (Proc.devRef .tc main_arg7) = W5 m ρ c (Proc.devRef .tc main_arg7) := W6_of_ne m ρ c main_arg7 (by decide)
theorem r6_v7 : W6 m ρ c (Proc.devRef .tc main_v7) = W5 m ρ c (Proc.devRef .tc main_v7) := W6_of_ne m ρ c main_v7 (by decide)
theorem r6_v32 : W6 m ρ c (Proc.devRef .tc main_v32) = W5 m ρ c (Proc.devRef .tc main_v32) := W6_of_ne m ρ c main_v32 (by decide)

/-! ## A region reads the buffer through an input window: an input array is never written -/
theorem r2_v14 : W2 m ρ c (Proc.devRef .tc main_v14) = W1 m ρ c (Proc.devRef .tc main_v14) :=
  (W2_arr m ρ c 1).trans (((dat0 (V1 m ρ) c).arrAt_in 1 rfl _).trans (A_eq0 (V1 m ρ) c 1))
theorem r4_arg2 : W4 m ρ c (Proc.devRef .tc main_arg2) = W3 m ρ c (Proc.devRef .tc main_arg2) :=
  (W4_arr m ρ c 1).trans (((dat1 (V3 m ρ) c).arrAt_in 1 rfl _).trans (A_eq1 (V3 m ρ) c 1))
theorem r4_v7 : W4 m ρ c (Proc.devRef .tc main_v7) = W3 m ρ c (Proc.devRef .tc main_v7) :=
  (W4_arr m ρ c 3).trans (((dat1 (V3 m ρ) c).arrAt_in 3 rfl _).trans (A_eq1 (V3 m ρ) c 3))

end Cert.KernelIdeal.Carry

end
-- ==== Proof.HostTerms.lean ====
/-
  The host operations around the kernel's four regions, named.

  Between its regions the kernel's program gathers rows by the edges' source nodes and relation types (an index below
  zero wrapped by the axis' extent first, as jnp's indexing does), slices one 128 × 128 weight out of a stack of two,
  sums the messages into their destination nodes, and — once, before the first layer — counts each node's incoming edges
  and turns "has one" into the float 1 or 0. Each is one function of the program's arguments here, for any float
  values: gathers and sums of rows chosen by index arrays are never opened, only compared.
-/
import proofs.«123888_j49624052138542_1_alg».proof.Proof.Gen.KernelIdeal

noncomputable section

namespace Cert.KernelIdeal.Terms

open Cert.KernelIdeal Cert.KernelIdeal.Gen Idealize.ShloMosaic

variable {F : FTy → Type} [FloatOps F]

/-- An index array as a column, an entry below zero raised by the extent `n` of the axis it indexes. -/
def wrapCol (n : BitVec 32) (x : (⟨S500000, .i32⟩ : BufTy).Contents (Elt F)) : (⟨S500000x1, .i32⟩ : BufTy).Contents (Elt F) :=
  broadcastInDim S500000x1 ![0] bcast_S500000_S500000x1_0
    (select (cmpi .slt x (broadcastInDim S500000 ![] bcast_S_S500000 (constantI S_ 32 0#32)))
      (addi x (broadcastInDim S500000 ![] bcast_S_S500000 (constantI S_ 32 n))) x)

/-- Row `src e` of the node features, for every edge `e`. -/
def featRows (h : (⟨S50000x128, .f32⟩ : BufTy).Contents (Elt F)) (src : (⟨S500000, .i32⟩ : BufTy).Contents (Elt F)) :
    (⟨S500000x128, .f32⟩ : BufTy).Contents (Elt F) :=
  Host.gather gather_S50000x128_S500000x1_S500000x128_1_0_n_n_0_1_1128 h (wrapCol 50000#32 src)

/-- Row `etype e` of the relation embeddings, for every edge `e`. -/
def relRows (rel : (⟨S200x128, .f32⟩ : BufTy).Contents (Elt F)) (et : (⟨S500000, .i32⟩ : BufTy).Contents (Elt F)) :
    (⟨S500000x128, .f32⟩ : BufTy).Contents (Elt F) :=
  Host.gather gather_S200x128_S500000x1_S500000x128_1_0_n_n_0_1_1128 rel (wrapCol 200#32 et)

/-- The first layer's weight out of a stack of two. -/
def weight0 (w : (⟨S2x128x128, .f32⟩ : BufTy).Contents (Elt F)) : (⟨S128x128, .f32⟩ : BufTy).Contents (Elt F) :=
  shapeCast _ (extractStridedSlice S1x128x128 ![0, 0, 0] w slices_S2x128x128_S1x128x128_0_0_0) shapeCasts_S1x128x128_S128x128

/-- The second layer's weight out of a stack of two. -/
def weight1 (w : (⟨S2x128x128, .f32⟩ : BufTy).Contents (Elt F)) : (⟨S128x128, .f32⟩ : BufTy).Contents (Elt F) :=
  shapeCast _ (extractStridedSlice S1x128x128 ![1, 0, 0] w slices_S2x128x128_S1x128x128_1_0_0) shapeCasts_S1x128x128_S128x128

/-- The destination nodes as a column of scatter indices. -/
def dstCol (dst : (⟨S500000, .i32⟩ : BufTy).Contents (Elt F)) : (⟨S500000x1, .i32⟩ : BufTy).Contents (Elt F) :=
  broadcastInDim S500000x1 ![0] bcast_S500000_S500000x1_0 dst

/-- The messages summed into their destination nodes, from zero. -/
def sumInto (dst : (⟨S500000, .i32⟩ : BufTy).Contents (Elt F)) (msg : (⟨S500000x128, .f32⟩ : BufTy).Contents (Elt F)) :
    (⟨S50000x128, .f32⟩ : BufTy).Contents (Elt F) :=
  Host.scatterAdd scatter_S50000x128_S500000x1_S500000x128_1_0_0_1
    (broadcastInDim S50000x128 ![] bcast_S_S50000x128 (constant S_ .f32 0x00000000#32)) (dstCol dst) msg

/-- Each node's number of incoming edges: a one per edge summed into its destination, from zero. -/
def inDegree (dst : (⟨S500000, .i32⟩ : BufTy).Contents (Elt F)) : (⟨S50000, .f32⟩ : BufTy).Contents (Elt F) :=
  Host.scatterAdd scatter_S50000_S500000x1_S500000_n_0_0_1
    (broadcastInDim S50000 ![] bcast_S_S50000 (constant S_ .f32 0x00000000#32)) (dstCol dst)
    (broadcastInDim S500000 ![] bcast_S_S500000 (constant S_ .f32 0x3F800000#32))

/-- Per node: does it have an incoming edge. -/
def hasIn (dst : (⟨S500000, .i32⟩ : BufTy).Contents (Elt F)) : (⟨S50000, .i1⟩ : BufTy).Contents (Elt F) :=
  cmpf .ogt (inDegree (F := F) dst) (broadcastInDim S50000 ![] bcast_S_S50000 (constant S_ .f32 0x00000000#32))

/-- The same as a float column: 1 where the node has an incoming edge, 0 where not. -/
def maskCol (dst : (⟨S500000, .i32⟩ : BufTy).Contents (Elt F)) : (⟨S50000x1, .f32⟩ : BufTy).Contents (Elt F) :=
  broadcastInDim S50000x1 ![0] bcast_S50000_S50000x1_0 (uitofp (F := F) .f32 (hasIn (F := F) dst))

end Cert.KernelIdeal.Terms

end
-- ==== Proof.HostWalk.lean ====
/-
  Reading the kernel program's buffers at its region boundaries.

  The frame gives the contents of every buffer at each boundary of @main as a fold from the launch memory: a host
  stretch rewrites the buffers its operations write, a region rewrites its result array, and everything else is carried
  over (the table of those single steps is HostCarry.lean). Here the fold is read where the proof needs it: each
  stretch's results are the host functions of HostTerms.lean applied to the arguments and to the previous region's
  result, and an argument array, the mask column, the gathered relations and the first layer's output are carried
  unchanged from where they are made to where a later region reads them. For any float values.
-/
import proofs.«123888_j49624052138542_1_alg».proof.Proof.HostCarry
import proofs.«123888_j49624052138542_1_alg».proof.Proof.HostTerms

set_option maxRecDepth 16384

noncomputable section

namespace Cert.KernelIdeal.Walk

open Cert.KernelIdeal Cert.KernelIdeal.Gen Cert.KernelIdeal.GenP Cert.KernelIdeal.Terms
open Idealize.ShloMosaic Idealize.ShloMosaic.TcCoe Idealize.SL.Sem Idealize.ShloMosaic.StableHlo
open Idealize.ShloMosaic.Pipeline (Dat Cfg Window)

variable {F : FTy → Type} [FloatOps F]
variable (m : (ℓ : Loc nD τ sig) → Buf (Elt F) ℓ) (ρ : Dev nD → PrngReg) (c : Dev nD)

/-! ## Boundary 1: after the first host stretch -/

/-- An argument at boundary 1 is the launch memory's: the first stretch writes none. -/
theorem w1_arg0 : W1 m ρ c (Proc.devRef .tc main_arg0) = m ((c : Thread nD τ).loc main_arg0) := (Carry.h1_arg0 m ρ c).trans rfl
theorem w1_arg2 : W1 m ρ c (Proc.devRef .tc main_arg2) = m ((c : Thread nD τ).loc main_arg2) := (Carry.h1_arg2 m ρ c).trans rfl
theorem w1_arg3 : W1 m ρ c (Proc.devRef .tc main_arg3) = m ((c : Thread nD τ).loc main_arg3) := (Carry.h1_arg3 m ρ c).trans rfl
theorem w1_arg4 : W1 m ρ c (Proc.devRef .tc main_arg4) = m ((c : Thread nD τ).loc main_arg4) := (Carry.h1_arg4 m ρ c).trans rfl
theorem w1_arg5 : W1 m ρ c (Proc.devRef .tc main_arg5) = m ((c : Thread nD τ).loc main_arg5) := (Carry.h1_arg5 m ρ c).trans rfl
theorem w1_arg6 : W1 m ρ c (Proc.devRef .tc main_arg6) = m ((c : Thread nD τ).loc main_arg6) := (Carry.h1_arg6 m ρ c).trans rfl
theorem w1_arg7 : W1 m ρ c (Proc.devRef .tc main_arg7) = m ((c : Thread nD τ).loc main_arg7) := (Carry.h1_arg7 m ρ c).trans rfl

set_option maxHeartbeats 2000000 in
/-- The gathered node features of the first layer: rows of the first argument, by the source indices. -/
theorem w1_v21 : W1 m ρ c (Proc.devRef .tc main_v21) = featRows (m ((c : Thread nD τ).loc main_arg0)) (m ((c : Thread nD τ).loc main_arg6)) := by
  show StableHlo.after hostOps0 (W0 m ρ c) (Proc.devRef .tc main_v21) = _
  dsimp only [hostOps0]
  after_results_simp <;> rfl
set_option maxHeartbeats 2000000 in
/-- The gathered relation rows (the same for both layers). -/
theorem w1_v14 : W1 m ρ c (Proc.devRef .tc main_v14) = relRows (m ((c : Thread nD τ).loc main_arg1)) (m ((c : Thread nD τ).loc main_arg8)) := by
  show StableHlo.after hostOps0 (W0 m ρ c) (Proc.devRef .tc main_v14) = _
  dsimp only [hostOps0]
  after_results_simp <;> rfl
/-- The first layer's message weight. -/
theorem w1_v23 : W1 m ρ c (Proc.devRef .tc main_v23) = weight0 (m ((c : Thread nD τ).loc main_arg3)) := by
  show StableHlo.after hostOps0 (W0 m ρ c) (Proc.devRef .tc main_v23) = _
  dsimp only [hostOps0]
  after_results
  rfl
/-- The float mask column. -/
theorem w1_v7 : W1 m ρ c (Proc.devRef .tc main_v7) = maskCol (m ((c : Thread nD τ).loc main_arg7)) := by
  show StableHlo.after hostOps0 (W0 m ρ c) (Proc.devRef .tc main_v7) = _
  dsimp only [hostOps0]
  after_results
  rfl

/-! ## Boundaries 2 and 3: across the first edge region and the second host stretch -/

theorem w2_arg4 : W2 m ρ c (Proc.devRef .tc main_arg4) = m ((c : Thread nD τ).loc main_arg4) := (Carry.r2_arg4 m ρ c).trans (w1_arg4 m ρ c)
theorem w2_arg5 : W2 m ρ c (Proc.devRef .tc main_arg5) = m ((c : Thread nD τ).loc main_arg5) := (Carry.r2_arg5 m ρ c).trans (w1_arg5 m ρ c)
theorem w2_arg7 : W2 m ρ c (Proc.devRef .tc main_arg7) = m ((c : Thread nD τ).loc main_arg7) := (Carry.r2_arg7 m ρ c).trans (w1_arg7 m ρ c)

/-- The first layer's messages summed into their destinations. -/
theorem w3_v27 : W3 m ρ c (Proc.devRef .tc main_v27) = sumInto (m ((c : Thread nD τ).loc main_arg7)) (W2 m ρ c (Proc.devRef .tc main_v24)) := by
  show StableHlo.after hostOps1 (W2 m ρ c) (Proc.devRef .tc main_v27) = _
  dsimp only [hostOps1]
  after_results
  rw [w2_arg7 m ρ c]
  rfl
/-- The first layer's two self-loop weights. -/
theorem w3_v29 : W3 m ρ c (Proc.devRef .tc main_v29) = weight0 (m ((c : Thread nD τ).loc main_arg4)) := by
  show StableHlo.after hostOps1 (W2 m ρ c) (Proc.devRef .tc main_v29) = _
  dsimp only [hostOps1]
  after_results
  rw [w2_arg4 m ρ c]
  rfl
theorem w3_v31 : W3 m ρ c (Proc.devRef .tc main_v31) = weight0 (m ((c : Thread nD τ).loc main_arg5)) := by
  show StableHlo.after hostOps1 (W2 m ρ c) (Proc.devRef .tc main_v31) = _
  dsimp only [hostOps1]
  after_results
  rw [w2_arg5 m ρ c]
  rfl
theorem w3_arg0 : W3 m ρ c (Proc.devRef .tc main_arg0) = m ((c : Thread nD τ).loc main_arg0) := ((Carry.h3_arg0 m ρ c).trans (Carry.r2_arg0 m ρ c)).trans (w1_arg0 m ρ c)
theorem w3_arg2 : W3 m ρ c (Proc.devRef .tc main_arg2) = m ((c : Thread nD τ).loc main_arg2) := ((Carry.h3_arg2 m ρ c).trans (Carry.r2_arg2 m ρ c)).trans (w1_arg2 m ρ c)
theorem w3_arg3 : W3 m ρ c (Proc.devRef .tc main_arg3) = m ((c : Thread nD τ).loc main_arg3) := ((Carry.h3_arg3 m ρ c).trans (Carry.r2_arg3 m ρ c)).trans (w1_arg3 m ρ c)
theorem w3_arg4 : W3 m ρ c (Proc.devRef .tc main_arg4) = m ((c : Thread nD τ).loc main_arg4) := ((Carry.h3_arg4 m ρ c).trans (Carry.r2_arg4 m ρ c)).trans (w1_arg4 m ρ c)
theorem w3_arg5 : W3 m ρ c (Proc.devRef .tc main_arg5) = m ((c : Thread nD τ).loc main_arg5) := ((Carry.h3_arg5 m ρ c).trans (Carry.r2_arg5 m ρ c)).trans (w1_arg5 m ρ c)
theorem w3_arg6 : W3 m ρ c (Proc.devRef .tc main_arg6) = m ((c : Thread nD τ).loc main_arg6) := ((Carry.h3_arg6 m ρ c).trans (Carry.r2_arg6 m ρ c)).trans (w1_arg6 m ρ c)
theorem w3_arg7 : W3 m ρ c (Proc.devRef .tc main_arg7) = m ((c : Thread nD τ).loc main_arg7) := ((Carry.h3_arg7 m ρ c).trans (Carry.r2_arg7 m ρ c)).trans (w1_arg7 m ρ c)
/-- The mask column and the gathered relations, made by the first stretch, are still there at boundary 3. -/
theorem w3_v7 : W3 m ρ c (Proc.devRef .tc main_v7) = maskCol (m ((c : Thread nD τ).loc main_arg7)) := ((Carry.h3_v7 m ρ c).trans (Carry.r2_v7 m ρ c)).trans (w1_v7 m ρ c)
theorem w3_v14 : W3 m ρ c (Proc.devRef .tc main_v14) = relRows (m ((c : Thread nD τ).loc main_arg1)) (m ((c : Thread nD τ).loc main_arg8)) := ((Carry.h3_v14 m ρ c).trans (Carry.r2_v14 m ρ c)).trans (w1_v14 m ρ c)

/-! ## Boundaries 4 and 5: across the first node region and the third host stretch -/

theorem w4_arg3 : W4 m ρ c (Proc.devRef .tc main_arg3) = m ((c : Thread nD τ).loc main_arg3) := (Carry.r4_arg3 m ρ c).trans (w3_arg3 m ρ c)
theorem w4_arg6 : W4 m ρ c (Proc.devRef .tc main_arg6) = m ((c : Thread nD τ).loc main_arg6) := (Carry.r4_arg6 m ρ c).trans (w3_arg6 m ρ c)

/-- The gathered node features of the second layer: rows of the first layer's output. -/
theorem w5_v39 : W5 m ρ c (Proc.devRef .tc main_v39) = featRows (W4 m ρ c (Proc.devRef .tc main_v32)) (m ((c : Thread nD τ).loc main_arg6)) := by
  show StableHlo.after hostOps2 (W4 m ρ c) (Proc.devRef .tc main_v39) = _
  dsimp only [hostOps2]
  after_results
  rw [w4_arg6 m ρ c]
  rfl
/-- The second layer's message weight. -/
theorem w5_v41 : W5 m ρ c (Proc.devRef .tc main_v41) = weight1 (m ((c : Thread nD τ).loc main_arg3)) := by
  show StableHlo.after hostOps2 (W4 m ρ c) (Proc.devRef .tc main_v41) = _
  dsimp only [hostOps2]
  after_results
  rw [w4_arg3 m ρ c]
  rfl
theorem w5_v14 : W5 m ρ c (Proc.devRef .tc main_v14) = relRows (m ((c : Thread nD τ).loc main_arg1)) (m ((c : Thread nD τ).loc main_arg8)) :=
  ((Carry.h5_v14 m ρ c).trans (Carry.r4_v14 m ρ c)).trans (w3_v14 m ρ c)

/-! ## Boundaries 6 and 7: across the second edge region and the last host stretch -/

theorem w6_arg4 : W6 m ρ c (Proc.devRef .tc main_arg4) = m ((c : Thread nD τ).loc main_arg4) := (((Carry.r6_arg4 m ρ c).trans (Carry.h5_arg4 m ρ c)).trans (Carry.r4_arg4 m ρ c)).trans (w3_arg4 m ρ c)
theorem w6_arg5 : W6 m ρ c (Proc.devRef .tc main_arg5) = m ((c : Thread nD τ).loc main_arg5) := (((Carry.r6_arg5 m ρ c).trans (Carry.h5_arg5 m ρ c)).trans (Carry.r4_arg5 m ρ c)).trans (w3_arg5 m ρ c)
theorem w6_arg7 : W6 m ρ c (Proc.devRef .tc main_arg7) = m ((c : Thread nD τ).loc main_arg7) := (((Carry.r6_arg7 m ρ c).trans (Carry.h5_arg7 m ρ c)).trans (Carry.r4_arg7 m ρ c)).trans (w3_arg7 m ρ c)

/-- The second layer's messages summed into their destinations. -/
theorem w7_v45 : W7 m ρ c (Proc.devRef .tc main_v45) = sumInto (m ((c : Thread nD τ).loc main_arg7)) (W6 m ρ c (Proc.devRef .tc main_v42)) := by
  show StableHlo.after hostOps3 (W6 m ρ c) (Proc.devRef .tc main_v45) = _
  dsimp only [hostOps3]
  after_results
  rw [w6_arg7 m ρ c]
  rfl
/-- The second layer's two self-loop weights. -/
theorem w7_v47 : W7 m ρ c (Proc.devRef .tc main_v47) = weight1 (m ((c : Thread nD τ).loc main_arg4)) := by
  show StableHlo.after hostOps3 (W6 m ρ c) (Proc.devRef .tc main_v47) = _
  dsimp only [hostOps3]
  after_results
  rw [w6_arg4 m ρ c]
  rfl
theorem w7_v49 : W7 m ρ c (Proc.devRef .tc main_v49) = weight1 (m ((c : Thread nD τ).loc main_arg5)) := by
  show StableHlo.after hostOps3 (W6 m ρ c) (Proc.devRef .tc main_v49) = _
  dsimp only [hostOps3]
  after_results
  rw [w6_arg5 m ρ c]
  rfl
theorem w7_arg2 : W7 m ρ c (Proc.devRef .tc main_arg2) = m ((c : Thread nD τ).loc main_arg2) :=
  ((((Carry.h7_arg2 m ρ c).trans (Carry.r6_arg2 m ρ c)).trans (Carry.h5_arg2 m ρ c)).trans (Carry.r4_arg2 m ρ c)).trans (w3_arg2 m ρ c)
theorem w7_v7 : W7 m ρ c (Proc.devRef .tc main_v7) = maskCol (m ((c : Thread nD τ).loc main_arg7)) :=
  ((((Carry.h7_v7 m ρ c).trans (Carry.r6_v7 m ρ c)).trans (Carry.h5_v7 m ρ c)).trans (Carry.r4_v7 m ρ c)).trans (w3_v7 m ρ c)
/-- The first layer's output is still in its buffer when the last region reads it. -/
theorem w7_v32 : W7 m ρ c (Proc.devRef .tc main_v32) = W4 m ρ c (Proc.devRef .tc main_v32) :=
  ((Carry.h7_v32 m ρ c).trans (Carry.r6_v32 m ρ c)).trans (Carry.h5_v32 m ρ c)

end Cert.KernelIdeal.Walk

end
-- ==== Proof.Spec.lean ====
/-
  What the two programs compute, entry by entry, over the extended reals.

  One layer of the network takes the node features `H` (one row of 128 per node), gathers a row per edge, adds the
  edge's relation row, multiplies by a 128 × 128 weight (the MESSAGE, `edgeAt`), sums the messages into their
  destination nodes, and then updates every node (`nodeAt`): the summed messages scaled by the node's norm, plus the
  node's own row times one of two weights — chosen by whether the node has an incoming edge —, passed through the
  leaky activation `leaky` (the identity on `s ≥ 0`, a fixed slope below).

  Everything here is stated over plain index functions into the extended reals, with the two float literals the
  programs share (the zero word and the slope word) kept as words: both programs print the same words, so they are
  never evaluated.
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-- A rank-2 array of extended reals. -/
abbrev Arr (n m : ℕ) : Type := (⟨2, ![n, m]⟩ : Shape).Idx → EReal

/-- The float zero both programs compare against, as its word. -/
abbrev zeroW : EReal := Ideal.ofBits .f32 0x00000000#32
/-- The activation's slope below zero, as its word (the float nearest 11/48). -/
abbrev slopeW : EReal := Ideal.ofBits .f32 0x3E6AAAAB#32

/-- The first coordinate of a rank-2 index, as a row number. -/
abbrev rowOf {n m : ℕ} (i : (⟨2, ![n, m]⟩ : Shape).Idx) : Fin n := ⟨(i 0).val, (i 0).isLt⟩
/-- The second coordinate of a rank-2 index, as a column number. -/
abbrev colOf {n m : ℕ} (i : (⟨2, ![n, m]⟩ : Shape).Idx) : Fin m := ⟨(i 1).val, (i 1).isLt⟩

/-- Row `p` of `H` times column `q` of `W`. -/
def rowDot {n : ℕ} (H : Arr n 128) (W : Arr 128 128) (p : Fin n) (q : Fin 128) : EReal :=
  ∑ k : Fin 128, H (ix2 p k) * W (ix2 k q)

/-- Entry `(p, q)` of the messages: row `p` of the gathered features plus row `p` of the gathered relations, times
    column `q` of the weight. -/
def edgeAt {n : ℕ} (X R : Arr n 128) (W : Arr 128 128) (p : Fin n) (q : Fin 128) : EReal :=
  ∑ k : Fin 128, (X (ix2 p k) + R (ix2 p k)) * W (ix2 k q)

/-- The messages as an array. -/
def edgeArr {n : ℕ} (X R : Arr n 128) (W : Arr 128 128) : Arr n 128 := fun i => edgeAt X R W (rowOf i) (colOf i)

theorem edgeArr_ix2 {n : ℕ} (X R : Arr n 128) (W : Arr 128 128) (p : Fin n) (q : Fin 128) :
    edgeArr X R W (ix2 p q) = edgeAt X R W p q := rfl

/-- The activation: `s` where `s ≥ 0`, `s` times the slope elsewhere. -/
def leaky (s : EReal) : EReal := Scalar.select (Ideal.cmp .oge s zeroW) s (s * slopeW)

/-- Entry `(p, q)` of a node update, the node's mask given as the bit `b`: the summed messages scaled by the node's
    norm, plus the node's row times `WL` where the bit is set and times `WA` where it is not, activated. -/
def nodeAt {n : ℕ} (AGG : Arr n 128) (NRM : Arr n 1) (H : Arr n 128) (b : BitVec 1) (WL WA : Arr 128 128)
    (p : Fin n) (q : Fin 128) : EReal :=
  leaky (AGG (ix2 p q) * NRM (ix2 p 0) + Scalar.select b (rowDot H WL p q) (rowDot H WA p q))

/-- The node update with the mask as the kernel sees it: a float column, the node counted as having an incoming edge
    where the float is above zero. -/
def nodeArrF {n : ℕ} (AGG : Arr n 128) (NRM : Arr n 1) (H : Arr n 128) (MF : Arr n 1) (WL WA : Arr 128 128) : Arr n 128 :=
  fun i => nodeAt AGG NRM H (Ideal.cmp .ogt (MF (ix2 (rowOf i) 0)) zeroW) WL WA (rowOf i) (colOf i)

/-- The node update with the mask as the reference sees it: one bit per node. -/
def nodeArrB {n : ℕ} (AGG : Arr n 128) (NRM : Arr n 1) (H : Arr n 128) (B : (⟨1, ![n]⟩ : Shape).Idx → BitVec 1)
    (WL WA : Arr 128 128) : Arr n 128 :=
  fun i => nodeAt AGG NRM H (B (ix1 (rowOf i))) WL WA (rowOf i) (colOf i)

theorem nodeArrF_ix2 {n : ℕ} (AGG : Arr n 128) (NRM : Arr n 1) (H : Arr n 128) (MF : Arr n 1) (WL WA : Arr 128 128)
    (p : Fin n) (q : Fin 128) :
    nodeArrF AGG NRM H MF WL WA (ix2 p q) = nodeAt AGG NRM H (Ideal.cmp .ogt (MF (ix2 p 0)) zeroW) WL WA p q := rfl

theorem nodeArrB_ix2 {n : ℕ} (AGG : Arr n 128) (NRM : Arr n 1) (H : Arr n 128) (B : (⟨1, ![n]⟩ : Shape).Idx → BitVec 1)
    (WL WA : Arr 128 128) (p : Fin n) (q : Fin 128) :
    nodeArrB AGG NRM H B WL WA (ix2 p q) = nodeAt AGG NRM H (B (ix1 p)) WL WA p q := rfl

/-- A bit turned into the float 0 or 1 and compared against zero is the bit again: 1 > 0 and not 0 > 0. -/
theorem cmp_ogt_toNat (b : BitVec 1) : Ideal.cmp .ogt (((b.toNat : ℝ)) : EReal) zeroW = b := by
  have h0 : zeroW = 0 := Ideal.ofBits_zero_f32
  rw [h0]
  have hb : b = 0#1 ∨ b = 1#1 := by
    rcases Nat.lt_succ_iff_lt_or_eq.mp (show b.toNat < 2 from b.isLt) with h | h
    · left; exact BitVec.eq_of_toNat_eq (by simpa using Nat.lt_one_iff.mp h)
    · right; exact BitVec.eq_of_toNat_eq (by simpa using h)
  rcases hb with rfl | rfl
  · simp [Ideal.cmp]
  · simp [Ideal.cmp]

/-- If the float mask column is the bit mask turned into floats, the two forms of the node update agree. -/
theorem nodeArrF_eq_nodeArrB {n : ℕ} (AGG : Arr n 128) (NRM : Arr n 1) (H : Arr n 128) (MF : Arr n 1)
    (B : (⟨1, ![n]⟩ : Shape).Idx → BitVec 1) (WL WA : Arr 128 128)
    (hM : ∀ p : Fin n, MF (ix2 p 0) = (((B (ix1 p)).toNat : ℝ) : EReal)) :
    nodeArrF AGG NRM H MF WL WA = nodeArrB AGG NRM H B WL WA := by
  funext i
  show nodeAt AGG NRM H (Ideal.cmp .ogt (MF (ix2 (rowOf i) 0)) zeroW) WL WA (rowOf i) (colOf i)
     = nodeAt AGG NRM H (B (ix1 (rowOf i))) WL WA (rowOf i) (colOf i)
  rw [hM (rowOf i), cmp_ogt_toNat]

end Cert.Spec

end
-- ==== Proof.Layer.lean ====
/-
  One layer of the network as the kernel's program computes it: gather a feature row and a relation row per edge, form
  the messages, sum them into their destination nodes, update every node (the specification's `edgeArr` and `nodeArrF`
  around the host functions of HostTerms.lean).
-/
import proofs.«123888_j49624052138542_1_alg».proof.Proof.HostTerms
import proofs.«123888_j49624052138542_1_alg».proof.Proof.Spec

noncomputable section

namespace Cert.KernelIdeal.KValue

open Cert.KernelIdeal Cert.KernelIdeal.Terms Cert.Spec Idealize.ShloMosaic

/-- One layer of the network on the node features `h`, as the kernel's program computes it. -/
def layer (h : Arr 50000 128) (wn wl wa : Arr 128 128) (rel : (⟨S200x128, .f32⟩ : BufTy).Contents (Elt Ideal))
    (nrm : Arr 50000 1) (src dst et : (⟨S500000, .i32⟩ : BufTy).Contents (Elt Ideal)) : Arr 50000 128 :=
  nodeArrF (sumInto (F := Ideal) dst (edgeArr (featRows (F := Ideal) h src) (relRows (F := Ideal) rel et) wn))
    nrm h (maskCol (F := Ideal) dst) wl wa

end Cert.KernelIdeal.KValue

end
-- ==== Proof.EdgeBody.lean ====
/-
  What the edge kernel's body stores, entry by entry, over the extended reals.

  The body adds the block of gathered features to the block of gathered relations, narrows both operands of the
  product to bf16 — the identity on extended reals — and multiplies by the 128 × 128 weight into a zero accumulator:
  entry (p, q) of the stored block is the sum over k of (x(p,k) + r(p,k)) · w(k,q), the specification's `edgeAt`.
-/
import proofs.«123888_j49624052138542_1_alg».proof.Proof.Gen.KernelIdeal.Skeleton
import proofs.«123888_j49624052138542_1_alg».proof.Proof.Spec
import Idealize.ShloMosaic.Lib.ValueIdx
import Idealize.ShloMosaic.Lib.Pipeline.Value
import Idealize.ShloMosaic.PureOps.Ideal.Laws

noncomputable section

open scoped BigOperators

namespace Cert.KernelIdeal.EdgeBody

open Cert.KernelIdeal Cert.KernelIdeal.Gen Idealize.ShloMosaic Idealize.ShloMosaic.ValueIdx

/-! ## The product's operand indices: the left operand is read at (row, k), the right at (k, column) -/

theorem lhs_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The product into a zero accumulator, at entry (p, q): the sum over the one contracted axis. -/
theorem matmul_entry (a : FVec Ideal S5000x128 .bf16) (w : FVec Ideal S128x128 .bf16) (p : Fin 5000) (q : Fin 128) :
    matmul dot_S5000x128_S128x128_S5000x128_1_0_0_1_n_n none a w (constant S5000x128 .f32 0x00000000#32) (ix2 p q)
      = ∑ k : Fin 128, a (ix2 p k) * w (ix2 k q) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs_0 _ _
    | ⟨1, _⟩ => exact (lhs_1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs_0 _ _).trans hk
    | ⟨1, _⟩ => exact rhs_1 _ _)
  rw [el, er]

/-- The first edge kernel's stored block at entry (p, q) is the specification's message entry. -/
theorem pay0 (x r : Vec Ideal S5000x128 .f32) (w : Vec Ideal S128x128 .f32) (p : Fin 5000) (q : Fin 128) :
    k0_pay1 (F := Ideal) x r w (ix2 p q) = Cert.Spec.edgeAt x r w p q := by
  unfold k0_pay1
  simp only [shapeCast_self]
  refine (matmul_entry _ _ p q).trans ?_
  rfl

/-- The second edge kernel's body is the same text. -/
theorem pay2 (x r : Vec Ideal S5000x128 .f32) (w : Vec Ideal S128x128 .f32) (p : Fin 5000) (q : Fin 128) :
    k2_pay1 (F := Ideal) x r w (ix2 p q) = Cert.Spec.edgeAt x r w p q := by
  unfold k2_pay1
  simp only [shapeCast_self]
  refine (matmul_entry _ _ p q).trans ?_
  rfl

/-- The same at an index given whole. -/
theorem pay0_at (x r : Vec Ideal S5000x128 .f32) (w : Vec Ideal S128x128 .f32) (j : S5000x128.Idx) :
    k0_pay1 (F := Ideal) x r w j = Cert.Spec.edgeAt x r w (Cert.Spec.rowOf j) (Cert.Spec.colOf j) := by
  obtain ⟨p, q, rfl⟩ : ∃ (p : Fin 5000) (q : Fin 128), j = ix2 p q := ⟨j 0, j 1, eq_ix2 j⟩
  exact pay0 x r w p q
theorem pay2_at (x r : Vec Ideal S5000x128 .f32) (w : Vec Ideal S128x128 .f32) (j : S5000x128.Idx) :
    k2_pay1 (F := Ideal) x r w j = Cert.Spec.edgeAt x r w (Cert.Spec.rowOf j) (Cert.Spec.colOf j) := by
  obtain ⟨p, q, rfl⟩ : ∃ (p : Fin 5000) (q : Fin 128), j = ix2 p q := ⟨j 0, j 1, eq_ix2 j⟩
  exact pay2 x r w p q

end Cert.KernelIdeal.EdgeBody

end
-- ==== Proof.EdgeRegion0.lean ====
/-
  The first edge region, from blocks to the array.

  The region runs the edge kernel once per block of 5000 edges: point `t` reads rows 5000·t … 5000·t + 4999 of the
  gathered features and of the gathered relations and the whole weight, and writes the same rows of the result. Each
  written block is the block's rows of ONE whole-array function, the specification's `edgeArr` of the three arrays the
  region was entered with, and the hundred blocks tile the result: so the result array after the region is `edgeArr`
  of those arrays. Stated at any contents `V` the region may be entered with, as the generated halves are.
-/
import proofs.«123888_j49624052138542_1_alg».proof.Proof.KernelIdealFrame
import proofs.«123888_j49624052138542_1_alg».proof.Proof.EdgeBody
import Idealize.ShloMosaic.Lib.Pipeline.Value

set_option maxRecDepth 16384

noncomputable section

open scoped BigOperators

namespace Cert.KernelIdeal.EdgeRegion0

open Cert.KernelIdeal Cert.KernelIdeal.Gen Cert.KernelIdeal.GenP Cert.Spec
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The zero offsets of a whole-block load or store, however spelt. -/
theorem hz : (![0, 0] : Fin 2 → Nat) = fun _ => 0 := funext fun a => by fin_cases a <;> rfl

/-! ## Region 0: the first layer's messages -/

/-- The printed index maps over the grid: point `t` takes block `t` of the rows of both edge arrays and of the
    result, all 128 columns, and the whole weight. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row `rowOf j` of point `t`'s block of the gathered features is row `rowOf (emb j)` of the array, `emb` the
    result block's place in its array: the two windows move together. -/
theorem read0_0 (c : Dev nD) (t : Fin cfg0.N) (j : S5000x128.Idx) (k : Fin 128) :
    iblk0 V c 0 t (ix2 (rowOf j) k)
      = V c (Pipeline.arrRef spec0 0) (ix2 (rowOf (((cfg0.win 3).blk t).view.emb j)) k) := by
  obtain ⟨e0, e1, -, -, -, -, e6, -⟩ := idx_facts0 t
  show V c (Pipeline.arrRef spec0 0) (((cfg0.win 0).blk t).view.emb (ix2 (rowOf j) k)) = _
  refine congrArg (V c (Pipeline.arrRef spec0 0)) (funext fun a => Fin.ext ?_)
  match a with
  | ⟨0, _⟩ =>
    show win0_0.index t (0 : Fin 2) * 5000 + 1 * (j 0).val = win0_3.index t (0 : Fin 2) * 5000 + 1 * (j 0).val
    omega
  | ⟨1, _⟩ =>
    show win0_0.index t (1 : Fin 2) * 128 + 1 * k.val = k.val
    omega

/-- The same for the gathered relations. -/
theorem read0_1 (c : Dev nD) (t : Fin cfg0.N) (j : S5000x128.Idx) (k : Fin 128) :
    iblk0 V c 1 t (ix2 (rowOf j) k)
      = V c (Pipeline.arrRef spec0 1) (ix2 (rowOf (((cfg0.win 3).blk t).view.emb j)) k) := by
  obtain ⟨-, -, e2, e3, -, -, e6, -⟩ := idx_facts0 t
  show V c (Pipeline.arrRef spec0 1) (((cfg0.win 1).blk t).view.emb (ix2 (rowOf j) k)) = _
  refine congrArg (V c (Pipeline.arrRef spec0 1)) (funext fun a => Fin.ext ?_)
  match a with
  | ⟨0, _⟩ =>
    show win0_1.index t (0 : Fin 2) * 5000 + 1 * (j 0).val = win0_3.index t (0 : Fin 2) * 5000 + 1 * (j 0).val
    omega
  | ⟨1, _⟩ =>
    show win0_1.index t (1 : Fin 2) * 128 + 1 * k.val = k.val
    omega

/-- Every point stages the whole weight; the result block keeps its columns. -/
theorem read0_2 (c : Dev nD) (t : Fin cfg0.N) (j : S5000x128.Idx) (k : Fin 128) :
    iblk0 V c 2 t (ix2 k (colOf j))
      = V c (Pipeline.arrRef spec0 2) (ix2 k (colOf (((cfg0.win 3).blk t).view.emb j))) := by
  obtain ⟨-, -, -, -, e4, e5, -, e7⟩ := idx_facts0 t
  show V c (Pipeline.arrRef spec0 2) (((cfg0.win 2).blk t).view.emb (ix2 k (colOf j))) = _
  refine congrArg (V c (Pipeline.arrRef spec0 2)) (funext fun a => Fin.ext ?_)
  match a with
  | ⟨0, _⟩ =>
    show win0_2.index t (0 : Fin 2) * 128 + 1 * k.val = k.val
    omega
  | ⟨1, _⟩ =>
    show win0_2.index t (1 : Fin 2) * 128 + 1 * (j 1).val = win0_3.index t (1 : Fin 2) * 128 + 1 * (j 1).val
    omega

/-- What point `t` writes back is block `t` of the messages of the three arrays as the region finds them. -/
theorem flushed0 (c : Dev nD) (t : Fin cfg0.N) :
    (dat0 (F := Ideal) V c).flushed 3 t
      = ((cfg0.win 3).blk t).view.read (Elt Ideal)
          (edgeArr (V c (Pipeline.arrRef spec0 0)) (V c (Pipeline.arrRef spec0 1)) (V c (Pipeline.arrRef spec0 2))) := by
  show (cfg0.win 3).cut (grid0.coords t) ((dat0 (F := Ideal) V c).after 3 t) = _
  rw [after0_3]
  unfold out0_3
  rw [View.canon_unit_zero hz]
  simp only [View.ld_unit_zero (S := S5000x128) hz, View.ld_unit_zero (S := S128x128) hz]
  funext j
  show k0_pay1 (F := Ideal) (iblk0 V c 0 t) (iblk0 V c 1 t) (iblk0 V c 2 t) j
    = edgeAt (V c (Pipeline.arrRef spec0 0)) (V c (Pipeline.arrRef spec0 1)) (V c (Pipeline.arrRef spec0 2))
        (rowOf (((cfg0.win 3).blk t).view.emb j)) (colOf (((cfg0.win 3).blk t).view.emb j))
  refine (EdgeBody.pay0_at (iblk0 V c 0 t) (iblk0 V c 1 t) (iblk0 V c 2 t) j).trans ?_
  unfold edgeAt
  refine Finset.sum_congr rfl fun k _ => ?_
  rw [read0_0 V c t j k, read0_1 V c t j k, read0_2 V c t j k]

/-- An index of the result array is in point `t`'s block iff each coordinate is in the block's range on its axis. -/
theorem mem_blk0 (t : Fin cfg0.N) (i : S500000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v24).slice (win0_3.rect t)).set ↔ _
  rw [View.set_slice_whole, Rect.mem_set_unit]
  exact Iff.rfl

/-- The hundred blocks of 5000 rows tile the 500000 rows: row `r` is in the block of point `r / 5000`. -/
theorem cover0 (i : S500000x128.Idx) :
    ∃ t : Fin cfg0.N, (cfg0.win 3).flush t = true ∧ i ∈ ((cfg0.win 3).blk t).view.set := by
  have hi0 : (i 0).val < 500000 := (i 0).isLt
  have hi1 : (i 1).val < 128 := (i 1).isLt
  have hN : (i 0).val / 5000 < cfg0.N := by show _ < grid0.N; rw [N_0]; omega
  obtain ⟨-, -, -, -, -, -, e6, e7⟩ := idx_facts0 ⟨(i 0).val / 5000, hN⟩
  refine ⟨⟨(i 0).val / 5000, hN⟩, flush0_3 _, ?_⟩
  rw [mem_blk0]
  intro a
  match a with
  | ⟨0, _⟩ =>
    show win0_3.index ⟨(i 0).val / 5000, hN⟩ (0 : Fin 2) * 5000 ≤ (i 0).val ∧ (i 0).val < win0_3.index ⟨(i 0).val / 5000, hN⟩ (0 : Fin 2) * 5000 + 5000
    rw [e6]; show (i 0).val / 5000 * 5000 ≤ (i 0).val ∧ (i 0).val < (i 0).val / 5000 * 5000 + 5000
    omega
  | ⟨1, _⟩ =>
    show win0_3.index ⟨(i 0).val / 5000, hN⟩ (1 : Fin 2) * 128 ≤ (i 1).val ∧ (i 1).val < win0_3.index ⟨(i 0).val / 5000, hN⟩ (1 : Fin 2) * 128 + 128
    rw [e7]; omega

/-- THE RESULT ARRAY after region 0: the messages of the three arrays the region was entered with. -/
theorem region0 (c : Dev nD) :
    (dat0 (F := Ideal) V c).arrAt 3 cfg0.N
      = edgeArr (V c (Pipeline.arrRef spec0 0)) (V c (Pipeline.arrRef spec0 1)) (V c (Pipeline.arrRef spec0 2)) :=
  (dat0 (F := Ideal) V c).arrAt_eq_of_cover 3 _ (fun t _ => flushed0 V c t) (cover0)

end Cert.KernelIdeal.EdgeRegion0

end
-- ==== Proof.NodeBody.lean ====
/-
  What the two node kernels store, entry by entry, over the extended reals.

  Each node kernel's arithmetic is one pure term of six loaded blocks: the node features h, the two weights, the float
  mask column, the norm column and the summed messages. Read at an entry (p, q) it is the node update of the
  specification: the summed messages scaled by the node's norm, plus row p of h times column q of the first weight
  where the mask is above zero and of the second weight elsewhere, passed through the activation.
-/
import proofs.«123888_j49624052138542_1_alg».proof.Proof.Gen.KernelIdeal.Skeleton
import proofs.«123888_j49624052138542_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.NodeBody

open Cert.KernelIdeal Cert.KernelIdeal.Gen Idealize.ShloMosaic Idealize.ShloMosaic.ValueIdx

/-! ## The product of a block of rows with a square weight

The node kernel multiplies a 2000 × 128 block by a 128 × 128 weight, contracting the block's second axis against the
weight's first. The four lemmas below read the two operand indices of that product at an output index and a
contraction index, one axis each: the left operand is read at (row, k), the right at (k, column). -/

/-- The left operand's row is the output's row. -/
theorem lhs_0 (i : S2000x128.Idx) (c : dot_S2000x128_S128x128_S2000x128_1_0_0_1_n_n.contr.Idx) :
    (dot_S2000x128_S128x128_S2000x128_1_0_0_1_n_n.lhsIdx i c 0).val = (i 0).val := by
  unfold DotDims.lhsIdx
  rw [dif_neg (show ¬(0 : Fin S2000x128.rank) ∈ dot_S2000x128_S128x128_S2000x128_1_0_0_1_n_n.lhsBatch by decide),
    dif_pos (show (0 : Fin S2000x128.rank) ∈ dot_S2000x128_S128x128_S2000x128_1_0_0_1_n_n.lhsNonContracting by decide)]
  rfl

/-- The left operand's column is the contraction coordinate. -/
theorem lhs_1 (i : S2000x128.Idx) (c : dot_S2000x128_S128x128_S2000x128_1_0_0_1_n_n.contr.Idx) :
    (dot_S2000x128_S128x128_S2000x128_1_0_0_1_n_n.lhsIdx i c 1).val = (c ⟨0, by decide⟩).val :=
  dot_S2000x128_S128x128_S2000x128_1_0_0_1_n_n.lhsIdx_val_of_single rfl i c

/-- The right operand's row is the contraction coordinate. -/
theorem rhs_0 (i : S2000x128.Idx) (c : dot_S2000x128_S128x128_S2000x128_1_0_0_1_n_n.contr.Idx) :
    (dot_S2000x128_S128x128_S2000x128_1_0_0_1_n_n.rhsIdx i c 0).val = (c ⟨0, by decide⟩).val :=
  dot_S2000x128_S128x128_S2000x128_1_0_0_1_n_n.rhsIdx_val_of_single rfl i c

/-- The right operand's column is the output's column. -/
theorem rhs_1 (i : S2000x128.Idx) (c : dot_S2000x128_S128x128_S2000x128_1_0_0_1_n_n.contr.Idx) :
    (dot_S2000x128_S128x128_S2000x128_1_0_0_1_n_n.rhsIdx i c 1).val = (i 1).val := by
  unfold DotDims.rhsIdx
  rw [dif_neg (show ¬(1 : Fin S128x128.rank) ∈ dot_S2000x128_S128x128_S2000x128_1_0_0_1_n_n.rhsBatch by decide),
    dif_pos (show (1 : Fin S128x128.rank) ∈ dot_S2000x128_S128x128_S2000x128_1_0_0_1_n_n.rhsNonContracting by decide)]
  rfl

/-- Over the extended reals the product into the zero splat is, at (p, q), the plain sum over k of the left operand's
    row p times the right operand's column q: the sum over the one-axis contraction shape is re-indexed by k, and each
    operand index is read off axis by axis. -/
theorem matmul_zero_apply {φ₁ φ₂ : FTy} (a : FVec Ideal S2000x128 φ₁) (w : FVec Ideal S128x128 φ₂) (p : Fin 2000) (q : Fin 128) :
    matmul dot_S2000x128_S128x128_S2000x128_1_0_0_1_n_n none a w (constant (F := Ideal) S2000x128 .f32 0x00000000#32) (ix2 p q)
      = ∑ k : Fin 128, a (ix2 p k) * w (ix2 k q) := by
  show FloatOps.matmul dot_S2000x128_S128x128_S2000x128_1_0_0_1_n_n none a w (constant S2000x128 .f32 0x00000000#32) (ix2 p q) = _
  rw [Ideal.matmul_constant_zero_apply,
    ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q)
      ((contrEquiv1 dot_S2000x128_S128x128_S2000x128_1_0_0_1_n_n 128 rfl rfl).symm k) = ix2 p k :=
    funext fun ax => Fin.ext (by
      match ax with
      | ⟨0, _⟩ => exact lhs_0 _ _
      | ⟨1, _⟩ => exact (lhs_1 _ _).trans hk)
  have er : dot_S2000x128_S128x128_S2000x128_1_0_0_1_n_n.rhsIdx (ix2 p q)
      ((contrEquiv1 dot_S2000x128_S128x128_S2000x128_1_0_0_1_n_n 128 rfl rfl).symm k) = ix2 k q :=
    funext fun ax => Fin.ext (by
      match ax with
      | ⟨0, _⟩ => exact (rhs_0 _ _).trans hk
      | ⟨1, _⟩ => exact rhs_1 _ _)
  rw [el, er]

/-! ## A column spread over the columns -/

/-- A 2000 × 1 column broadcast to 2000 × 128 reads, at (p, q), the column's entry in row p. -/
theorem bcast_col_apply {α : Type} (v : S2000x1.Idx → α) (p : Fin 2000) (q : Fin 128) :
    broadcastTo S2000x128 v broadcasts_S2000x1_S2000x128 (ix2 p q) = v (ix2 p 0) := by
  refine broadcastTo_apply v broadcasts_S2000x1_S2000x128 (ix2 p q) (ix2 p 0) fun ax => ?_
  match ax with
  | ⟨0, _⟩ =>
    show p.val = if (2000 : ℕ) = 1 then 0 else p.val
    rw [if_neg (by decide)]
  | ⟨1, _⟩ =>
    show (0 : ℕ) = if (1 : ℕ) = 1 then 0 else q.val
    rw [if_pos rfl]

/-! ## What the node kernels store -/

/-- A float literal of the payload, read over the extended reals, is the value of its word. -/
theorem ofBits_f32 (w : BitVec 32) : Scalar.ofBits (F := Ideal) .f32 w = Ideal.ofBits .f32 w := rfl

/-- A comparison of two extended reals is the ideal comparison. -/
theorem cmpf_ideal (c : CmpFPredicate) (x y : EReal) :
    FloatOps.cmpf (F := Ideal) (φ := .f32) c x y = Ideal.cmp c x y := rfl

/-- Entry (p, q) of the block the first node kernel stores. Over the extended reals the truncations to the short
    format and the shape casts to the same shape are the identity, each product into the zero splat is the plain sum
    over k, and the two columns spread over the row are read at row p. What is left is the node update: the summed
    messages times the node's norm, plus row p of the features times column q of one of the two weights — the first
    where the mask is above zero, the second elsewhere —, through the activation. -/
theorem pay1 (v0 : Vec Ideal S2000x128 .f32) (v2 v5 : Vec Ideal S128x128 .f32) (v10 v17 : Vec Ideal S2000x1 .f32)
    (v20 : Vec Ideal S2000x128 .f32) (p : Fin 2000) (q : Fin 128) :
    k1_pay1 (F := Ideal) v0 v2 v5 v10 v17 v20 (ix2 p q)
      = Cert.Spec.nodeAt v20 v17 v0 (Ideal.cmp .ogt (v10 (ix2 p 0)) Cert.Spec.zeroW) v2 v5 p q := by
  unfold k1_pay1
  simp only [select_apply, cmpf_apply, addf_apply, mulf_apply, broadcast_apply, shapeCast_self, bcast_col_apply,
    matmul_zero_apply, truncf_apply, ofBits_f32, cmpf_ideal]
  rfl

/-- Entry (p, q) of the block the second node kernel stores: the same update, its feature block passing through one
    more shape cast to its own shape. -/
theorem pay3 (v0 : Vec Ideal S2000x128 .f32) (v3 v6 : Vec Ideal S128x128 .f32) (v11 v18 : Vec Ideal S2000x1 .f32)
    (v21 : Vec Ideal S2000x128 .f32) (p : Fin 2000) (q : Fin 128) :
    k3_pay1 (F := Ideal) v0 v3 v6 v11 v18 v21 (ix2 p q)
      = Cert.Spec.nodeAt v21 v18 v0 (Ideal.cmp .ogt (v11 (ix2 p 0)) Cert.Spec.zeroW) v3 v6 p q := by
  unfold k3_pay1
  simp only [select_apply, cmpf_apply, addf_apply, mulf_apply, broadcast_apply, shapeCast_self, bcast_col_apply,
    matmul_zero_apply, truncf_apply, ofBits_f32, cmpf_ideal]
  rfl

end Cert.KernelIdeal.NodeBody

end
-- ==== Proof.NodeRegion1.lean ====
/-
  The first node region, from blocks to the array.

  The region runs the node kernel once per block of 2000 nodes: point `t` reads rows 2000·t … 2000·t + 1999 of the
  summed messages, of the norm column, of the node features and of the float mask column, and the two whole weights,
  and writes the same rows of the result. Each written block is the block's rows of ONE whole-array function, the
  specification's `nodeArrF` of the six arrays the region was entered with, and the twenty-five blocks tile the result:
  so the result array after the region is `nodeArrF` of those arrays. Stated at any contents `V` the region may be
  entered with, as the generated halves are.
-/
import proofs.«123888_j49624052138542_1_alg».proof.Proof.KernelIdealFrame
import proofs.«123888_j49624052138542_1_alg».proof.Proof.NodeBody
import Idealize.ShloMosaic.Lib.Pipeline.Value

set_option maxRecDepth 16384

noncomputable section

open scoped BigOperators

namespace Cert.KernelIdeal.NodeRegion1

open Cert.KernelIdeal Cert.KernelIdeal.Gen Cert.KernelIdeal.GenP Cert.Spec
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The zero offsets of a whole-block load or store, however spelt. -/
theorem hz : (![0, 0] : Fin 2 → Nat) = fun _ => 0 := funext fun a => by fin_cases a <;> rfl

/-- The stored entry at an index given whole, the six blocks named in the order of the specification's arguments:
    summed messages, norm column, node features, float mask column and the two weights. -/
theorem pay1_at (agg : Vec Ideal S2000x128 .f32) (nrm : Vec Ideal S2000x1 .f32) (h : Vec Ideal S2000x128 .f32)
    (mf : Vec Ideal S2000x1 .f32) (wl wa : Vec Ideal S128x128 .f32) (j : S2000x128.Idx) :
    k1_pay1 (F := Ideal) h wl wa mf nrm agg j
      = nodeAt agg nrm h (Ideal.cmp .ogt (mf (ix2 (rowOf j) 0)) zeroW) wl wa (rowOf j) (colOf j) := by
  obtain ⟨p, q, rfl⟩ : ∃ (p : Fin 2000) (q : Fin 128), j = ix2 p q := ⟨j 0, j 1, eq_ix2 j⟩
  exact NodeBody.pay1 h wl wa mf nrm agg p q

/-! ## Region 1: the first layer's node update -/

/-- The printed index maps over the grid: point `t` takes block `t` of the rows of the summed messages, of the two
    columns, of the node features and of the result, all their columns, and the two whole weights. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- Entry `j` of point `t`'s block of the summed messages is the array's entry at `emb j`, `emb` the result block's place in
    its array: the two windows move together. -/
theorem read1_0 (c : Dev nD) (t : Fin cfg1.N) (j : S2000x128.Idx) :
    iblk1 V c 0 t (ix2 (rowOf j) (colOf j))
      = V c (Pipeline.arrRef spec1 0) (ix2 (rowOf (((cfg1.win 6).blk t).view.emb j)) (colOf (((cfg1.win 6).blk t).view.emb j))) := by
  obtain ⟨e0, e1, e2, e3, e4, e5, e6, e7, e8, e9, e10, e11, e12, e13⟩ := idx_facts1 t
  show V c (Pipeline.arrRef spec1 0) (((cfg1.win 0).blk t).view.emb (ix2 (rowOf j) (colOf j))) = _
  refine congrArg (V c (Pipeline.arrRef spec1 0)) (funext fun a => Fin.ext ?_)
  match a with
  | ⟨0, _⟩ =>
    show win1_0.index t (0 : Fin 2) * 2000 + 1 * (j 0).val = win1_6.index t (0 : Fin 2) * 2000 + 1 * (j 0).val
    omega
  | ⟨1, _⟩ =>
    show win1_0.index t (1 : Fin 2) * 128 + 1 * (j 1).val = win1_6.index t (1 : Fin 2) * 128 + 1 * (j 1).val
    omega

/-- Row `rowOf j` of point `t`'s block of the norm column is row `rowOf (emb j)` of the column. -/
theorem read1_1 (c : Dev nD) (t : Fin cfg1.N) (j : S2000x128.Idx) :
    iblk1 V c 1 t (ix2 (rowOf j) 0)
      = V c (Pipeline.arrRef spec1 1) (ix2 (rowOf (((cfg1.win 6).blk t).view.emb j)) 0) := by
  obtain ⟨e0, e1, e2, e3, e4, e5, e6, e7, e8, e9, e10, e11, e12, e13⟩ := idx_facts1 t
  show V c (Pipeline.arrRef spec1 1) (((cfg1.win 1).blk t).view.emb (ix2 (rowOf j) 0)) = _
  refine congrArg (V c (Pipeline.arrRef spec1 1)) (funext fun a => Fin.ext ?_)
  match a with
  | ⟨0, _⟩ =>
    show win1_1.index t (0 : Fin 2) * 2000 + 1 * (j 0).val = win1_6.index t (0 : Fin 2) * 2000 + 1 * (j 0).val
    omega
  | ⟨1, _⟩ =>
    show win1_1.index t (1 : Fin 2) * 1 + 1 * 0 = 0
    omega

/-- Row `rowOf j` of point `t`'s block of the node features is row `rowOf (emb j)` of the array, every column. -/
theorem read1_2 (c : Dev nD) (t : Fin cfg1.N) (j : S2000x128.Idx) (k : Fin 128) :
    iblk1 V c 2 t (ix2 (rowOf j) k)
      = V c (Pipeline.arrRef spec1 2) (ix2 (rowOf (((cfg1.win 6).blk t).view.emb j)) k) := by
  obtain ⟨e0, e1, e2, e3, e4, e5, e6, e7, e8, e9, e10, e11, e12, e13⟩ := idx_facts1 t
  show V c (Pipeline.arrRef spec1 2) (((cfg1.win 2).blk t).view.emb (ix2 (rowOf j) k)) = _
  refine congrArg (V c (Pipeline.arrRef spec1 2)) (funext fun a => Fin.ext ?_)
  match a with
  | ⟨0, _⟩ =>
    show win1_2.index t (0 : Fin 2) * 2000 + 1 * (j 0).val = win1_6.index t (0 : Fin 2) * 2000 + 1 * (j 0).val
    omega
  | ⟨1, _⟩ =>
    show win1_2.index t (1 : Fin 2) * 128 + 1 * k.val = k.val
    omega

/-- The same for the float mask column as for the norm column. -/
theorem read1_3 (c : Dev nD) (t : Fin cfg1.N) (j : S2000x128.Idx) :
    iblk1 V c 3 t (ix2 (rowOf j) 0)
      = V c (Pipeline.arrRef spec1 3) (ix2 (rowOf (((cfg1.win 6).blk t).view.emb j)) 0) := by
  obtain ⟨e0, e1, e2, e3, e4, e5, e6, e7, e8, e9, e10, e11, e12, e13⟩ := idx_facts1 t
  show V c (Pipeline.arrRef spec1 3) (((cfg1.win 3).blk t).view.emb (ix2 (rowOf j) 0)) = _
  refine congrArg (V c (Pipeline.arrRef spec1 3)) (funext fun a => Fin.ext ?_)
  match a with
  | ⟨0, _⟩ =>
    show win1_3.index t (0 : Fin 2) * 2000 + 1 * (j 0).val = win1_6.index t (0 : Fin 2) * 2000 + 1 * (j 0).val
    omega
  | ⟨1, _⟩ =>
    show win1_3.index t (1 : Fin 2) * 1 + 1 * 0 = 0
    omega

/-- Every point stages the whole first weight; the result block keeps its columns. -/
theorem read1_4 (c : Dev nD) (t : Fin cfg1.N) (j : S2000x128.Idx) (k : Fin 128) :
    iblk1 V c 4 t (ix2 k (colOf j))
      = V c (Pipeline.arrRef spec1 4) (ix2 k (colOf (((cfg1.win 6).blk t).view.emb j))) := by
  obtain ⟨e0, e1, e2, e3, e4, e5, e6, e7, e8, e9, e10, e11, e12, e13⟩ := idx_facts1 t
  show V c (Pipeline.arrRef spec1 4) (((cfg1.win 4).blk t).view.emb (ix2 k (colOf j))) = _
  refine congrArg (V c (Pipeline.arrRef spec1 4)) (funext fun a => Fin.ext ?_)
  match a with
  | ⟨0, _⟩ =>
    show win1_4.index t (0 : Fin 2) * 128 + 1 * k.val = k.val
    omega
  | ⟨1, _⟩ =>
    show win1_4.index t (1 : Fin 2) * 128 + 1 * (j 1).val = win1_6.index t (1 : Fin 2) * 128 + 1 * (j 1).val
    omega

/-- The same for the second weight. -/
theorem read1_5 (c : Dev nD) (t : Fin cfg1.N) (j : S2000x128.Idx) (k : Fin 128) :
    iblk1 V c 5 t (ix2 k (colOf j))
      = V c (Pipeline.arrRef spec1 5) (ix2 k (colOf (((cfg1.win 6).blk t).view.emb j))) := by
  obtain ⟨e0, e1, e2, e3, e4, e5, e6, e7, e8, e9, e10, e11, e12, e13⟩ := idx_facts1 t
  show V c (Pipeline.arrRef spec1 5) (((cfg1.win 5).blk t).view.emb (ix2 k (colOf j))) = _
  refine congrArg (V c (Pipeline.arrRef spec1 5)) (funext fun a => Fin.ext ?_)
  match a with
  | ⟨0, _⟩ =>
    show win1_5.index t (0 : Fin 2) * 128 + 1 * k.val = k.val
    omega
  | ⟨1, _⟩ =>
    show win1_5.index t (1 : Fin 2) * 128 + 1 * (j 1).val = win1_6.index t (1 : Fin 2) * 128 + 1 * (j 1).val
    omega

/-- What point `t` writes back is block `t` of the node update of the six arrays as the region finds them. -/
theorem flushed1 (c : Dev nD) (t : Fin cfg1.N) :
    (dat1 (F := Ideal) V c).flushed 6 t
      = ((cfg1.win 6).blk t).view.read (Elt Ideal)
          (nodeArrF (V c (Pipeline.arrRef spec1 0)) (V c (Pipeline.arrRef spec1 1)) (V c (Pipeline.arrRef spec1 2))
            (V c (Pipeline.arrRef spec1 3)) (V c (Pipeline.arrRef spec1 4)) (V c (Pipeline.arrRef spec1 5))) := by
  show (cfg1.win 6).cut (grid1.coords t) ((dat1 (F := Ideal) V c).after 6 t) = _
  rw [after1_6]
  unfold out1_6
  rw [View.canon_unit_zero hz]
  simp only [View.ld_unit_zero (S := S2000x128) hz, View.ld_unit_zero (S := S128x128) hz,
    View.ld_unit_zero (S := S2000x1) hz]
  funext j
  show k1_pay1 (F := Ideal) (iblk1 V c 2 t) (iblk1 V c 4 t) (iblk1 V c 5 t) (iblk1 V c 3 t) (iblk1 V c 1 t) (iblk1 V c 0 t) j
    = nodeAt (V c (Pipeline.arrRef spec1 0)) (V c (Pipeline.arrRef spec1 1)) (V c (Pipeline.arrRef spec1 2))
        (Ideal.cmp .ogt (V c (Pipeline.arrRef spec1 3) (ix2 (rowOf (((cfg1.win 6).blk t).view.emb j)) 0)) zeroW)
        (V c (Pipeline.arrRef spec1 4)) (V c (Pipeline.arrRef spec1 5))
        (rowOf (((cfg1.win 6).blk t).view.emb j)) (colOf (((cfg1.win 6).blk t).view.emb j))
  refine (pay1_at (iblk1 V c 0 t) (iblk1 V c 1 t) (iblk1 V c 2 t) (iblk1 V c 3 t) (iblk1 V c 4 t) (iblk1 V c 5 t) j).trans ?_
  unfold nodeAt rowDot
  rw [read1_0 V c t j, read1_1 V c t j, read1_3 V c t j]
  simp only [read1_2 V c t j, read1_4 V c t j, read1_5 V c t j]

/-- An index of the result array is in point `t`'s block iff each coordinate is in the block's range on its axis. -/
theorem mem_blk1 (t : Fin cfg1.N) (i : S50000x128.Idx) :
    i ∈ ((cfg1.win 6).blk t).view.set ↔ ∀ a : Fin 2, win1_6.index t a * S2000x128.size a ≤ (i a).val ∧ (i a).val < win1_6.index t a * S2000x128.size a + S2000x128.size a := by
  show i ∈ ((View.whole main_v32).slice (win1_6.rect t)).set ↔ _
  rw [View.set_slice_whole, Rect.mem_set_unit]
  exact Iff.rfl

/-- The twenty-five blocks of 2000 rows tile the 50000 rows: row `r` is in the block of point `r / 2000`. -/
theorem cover1 (i : S50000x128.Idx) :
    ∃ t : Fin cfg1.N, (cfg1.win 6).flush t = true ∧ i ∈ ((cfg1.win 6).blk t).view.set := by
  have hi0 : (i 0).val < 50000 := (i 0).isLt
  have hi1 : (i 1).val < 128 := (i 1).isLt
  have hN : (i 0).val / 2000 < cfg1.N := by show _ < grid1.N; rw [N_1]; omega
  obtain ⟨e0, e1, e2, e3, e4, e5, e6, e7, e8, e9, e10, e11, e12, e13⟩ := idx_facts1 ⟨(i 0).val / 2000, hN⟩
  refine ⟨⟨(i 0).val / 2000, hN⟩, flush1_6 _, ?_⟩
  rw [mem_blk1]
  intro a
  match a with
  | ⟨0, _⟩ =>
    show win1_6.index ⟨(i 0).val / 2000, hN⟩ (0 : Fin 2) * 2000 ≤ (i 0).val ∧ (i 0).val < win1_6.index ⟨(i 0).val / 2000, hN⟩ (0 : Fin 2) * 2000 + 2000
    rw [e12]; show (i 0).val / 2000 * 2000 ≤ (i 0).val ∧ (i 0).val < (i 0).val / 2000 * 2000 + 2000
    omega
  | ⟨1, _⟩ =>
    show win1_6.index ⟨(i 0).val / 2000, hN⟩ (1 : Fin 2) * 128 ≤ (i 1).val ∧ (i 1).val < win1_6.index ⟨(i 0).val / 2000, hN⟩ (1 : Fin 2) * 128 + 128
    rw [e13]; omega

/-- THE RESULT ARRAY after region 1: the node update of the six arrays the region was entered with. -/
theorem region1 (c : Dev nD) :
    (dat1 (F := Ideal) V c).arrAt 6 cfg1.N
      = nodeArrF (V c (Pipeline.arrRef spec1 0)) (V c (Pipeline.arrRef spec1 1)) (V c (Pipeline.arrRef spec1 2))
          (V c (Pipeline.arrRef spec1 3)) (V c (Pipeline.arrRef spec1 4)) (V c (Pipeline.arrRef spec1 5)) :=
  (dat1 (F := Ideal) V c).arrAt_eq_of_cover 6 _ (fun t _ => flushed1 V c t) (cover1)

end Cert.KernelIdeal.NodeRegion1

end
-- ==== Proof.NodeRegion3.lean ====
/-
  The second node region, from blocks to the array.

  The region runs the node kernel once per block of 2000 nodes: point `t` reads rows 2000·t … 2000·t + 1999 of the
  summed messages, of the norm column, of the node features and of the float mask column, and the two whole weights,
  and writes the same rows of the result. Each written block is the block's rows of ONE whole-array function, the
  specification's `nodeArrF` of the six arrays the region was entered with, and the twenty-five blocks tile the result:
  so the result array after the region is `nodeArrF` of those arrays. Stated at any contents `V` the region may be
  entered with, as the generated halves are.
-/
import proofs.«123888_j49624052138542_1_alg».proof.Proof.KernelIdealFrame
import proofs.«123888_j49624052138542_1_alg».proof.Proof.NodeBody
import Idealize.ShloMosaic.Lib.Pipeline.Value

set_option maxRecDepth 16384

noncomputable section

open scoped BigOperators

namespace Cert.KernelIdeal.NodeRegion3

open Cert.KernelIdeal Cert.KernelIdeal.Gen Cert.KernelIdeal.GenP Cert.Spec
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The zero offsets of a whole-block load or store, however spelt. -/
theorem hz : (![0, 0] : Fin 2 → Nat) = fun _ => 0 := funext fun a => by fin_cases a <;> rfl

/-- The stored entry at an index given whole, the six blocks named in the order of the specification's arguments:
    summed messages, norm column, node features, float mask column and the two weights. -/
theorem pay3_at (agg : Vec Ideal S2000x128 .f32) (nrm : Vec Ideal S2000x1 .f32) (h : Vec Ideal S2000x128 .f32)
    (mf : Vec Ideal S2000x1 .f32) (wl wa : Vec Ideal S128x128 .f32) (j : S2000x128.Idx) :
    k3_pay1 (F := Ideal) h wl wa mf nrm agg j
      = nodeAt agg nrm h (Ideal.cmp .ogt (mf (ix2 (rowOf j) 0)) zeroW) wl wa (rowOf j) (colOf j) := by
  obtain ⟨p, q, rfl⟩ : ∃ (p : Fin 2000) (q : Fin 128), j = ix2 p q := ⟨j 0, j 1, eq_ix2 j⟩
  exact NodeBody.pay3 h wl wa mf nrm agg p q

/-! ## Region 3: the second layer's node update -/

/-- The printed index maps over the grid: point `t` takes block `t` of the rows of the summed messages, of the two
    columns, of the node features and of the result, all their columns, and the two whole weights. -/
theorem idx_facts3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = t.val ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0 :=
  (by decide +kernel : ∀ t : Fin grid3.N, _)

/-- Entry `j` of point `t`'s block of the summed messages is the array's entry at `emb j`, `emb` the result block's place in
    its array: the two windows move together. -/
theorem read3_0 (c : Dev nD) (t : Fin cfg3.N) (j : S2000x128.Idx) :
    iblk3 V c 0 t (ix2 (rowOf j) (colOf j))
      = V c (Pipeline.arrRef spec3 0) (ix2 (rowOf (((cfg3.win 6).blk t).view.emb j)) (colOf (((cfg3.win 6).blk t).view.emb j))) := by
  obtain ⟨e0, e1, e2, e3, e4, e5, e6, e7, e8, e9, e10, e11, e12, e13⟩ := idx_facts3 t
  show V c (Pipeline.arrRef spec3 0) (((cfg3.win 0).blk t).view.emb (ix2 (rowOf j) (colOf j))) = _
  refine congrArg (V c (Pipeline.arrRef spec3 0)) (funext fun a => Fin.ext ?_)
  match a with
  | ⟨0, _⟩ =>
    show win3_0.index t (0 : Fin 2) * 2000 + 1 * (j 0).val = win3_6.index t (0 : Fin 2) * 2000 + 1 * (j 0).val
    omega
  | ⟨1, _⟩ =>
    show win3_0.index t (1 : Fin 2) * 128 + 1 * (j 1).val = win3_6.index t (1 : Fin 2) * 128 + 1 * (j 1).val
    omega

/-- Row `rowOf j` of point `t`'s block of the norm column is row `rowOf (emb j)` of the column. -/
theorem read3_1 (c : Dev nD) (t : Fin cfg3.N) (j : S2000x128.Idx) :
    iblk3 V c 1 t (ix2 (rowOf j) 0)
      = V c (Pipeline.arrRef spec3 1) (ix2 (rowOf (((cfg3.win 6).blk t).view.emb j)) 0) := by
  obtain ⟨e0, e1, e2, e3, e4, e5, e6, e7, e8, e9, e10, e11, e12, e13⟩ := idx_facts3 t
  show V c (Pipeline.arrRef spec3 1) (((cfg3.win 1).blk t).view.emb (ix2 (rowOf j) 0)) = _
  refine congrArg (V c (Pipeline.arrRef spec3 1)) (funext fun a => Fin.ext ?_)
  match a with
  | ⟨0, _⟩ =>
    show win3_1.index t (0 : Fin 2) * 2000 + 1 * (j 0).val = win3_6.index t (0 : Fin 2) * 2000 + 1 * (j 0).val
    omega
  | ⟨1, _⟩ =>
    show win3_1.index t (1 : Fin 2) * 1 + 1 * 0 = 0
    omega

/-- Row `rowOf j` of point `t`'s block of the node features is row `rowOf (emb j)` of the array, every column. -/
theorem read3_2 (c : Dev nD) (t : Fin cfg3.N) (j : S2000x128.Idx) (k : Fin 128) :
    iblk3 V c 2 t (ix2 (rowOf j) k)
      = V c (Pipeline.arrRef spec3 2) (ix2 (rowOf (((cfg3.win 6).blk t).view.emb j)) k) := by
  obtain ⟨e0, e1, e2, e3, e4, e5, e6, e7, e8, e9, e10, e11, e12, e13⟩ := idx_facts3 t
  show V c (Pipeline.arrRef spec3 2) (((cfg3.win 2).blk t).view.emb (ix2 (rowOf j) k)) = _
  refine congrArg (V c (Pipeline.arrRef spec3 2)) (funext fun a => Fin.ext ?_)
  match a with
  | ⟨0, _⟩ =>
    show win3_2.index t (0 : Fin 2) * 2000 + 1 * (j 0).val = win3_6.index t (0 : Fin 2) * 2000 + 1 * (j 0).val
    omega
  | ⟨1, _⟩ =>
    show win3_2.index t (1 : Fin 2) * 128 + 1 * k.val = k.val
    omega

/-- The same for the float mask column as for the norm column. -/
theorem read3_3 (c : Dev nD) (t : Fin cfg3.N) (j : S2000x128.Idx) :
    iblk3 V c 3 t (ix2 (rowOf j) 0)
      = V c (Pipeline.arrRef spec3 3) (ix2 (rowOf (((cfg3.win 6).blk t).view.emb j)) 0) := by
  obtain ⟨e0, e1, e2, e3, e4, e5, e6, e7, e8, e9, e10, e11, e12, e13⟩ := idx_facts3 t
  show V c (Pipeline.arrRef spec3 3) (((cfg3.win 3).blk t).view.emb (ix2 (rowOf j) 0)) = _
  refine congrArg (V c (Pipeline.arrRef spec3 3)) (funext fun a => Fin.ext ?_)
  match a with
  | ⟨0, _⟩ =>
    show win3_3.index t (0 : Fin 2) * 2000 + 1 * (j 0).val = win3_6.index t (0 : Fin 2) * 2000 + 1 * (j 0).val
    omega
  | ⟨1, _⟩ =>
    show win3_3.index t (1 : Fin 2) * 1 + 1 * 0 = 0
    omega

/-- Every point stages the whole first weight; the result block keeps its columns. -/
theorem read3_4 (c : Dev nD) (t : Fin cfg3.N) (j : S2000x128.Idx) (k : Fin 128) :
    iblk3 V c 4 t (ix2 k (colOf j))
      = V c (Pipeline.arrRef spec3 4) (ix2 k (colOf (((cfg3.win 6).blk t).view.emb j))) := by
  obtain ⟨e0, e1, e2, e3, e4, e5, e6, e7, e8, e9, e10, e11, e12, e13⟩ := idx_facts3 t
  show V c (Pipeline.arrRef spec3 4) (((cfg3.win 4).blk t).view.emb (ix2 k (colOf j))) = _
  refine congrArg (V c (Pipeline.arrRef spec3 4)) (funext fun a => Fin.ext ?_)
  match a with
  | ⟨0, _⟩ =>
    show win3_4.index t (0 : Fin 2) * 128 + 1 * k.val = k.val
    omega
  | ⟨1, _⟩ =>
    show win3_4.index t (1 : Fin 2) * 128 + 1 * (j 1).val = win3_6.index t (1 : Fin 2) * 128 + 1 * (j 1).val
    omega

/-- The same for the second weight. -/
theorem read3_5 (c : Dev nD) (t : Fin cfg3.N) (j : S2000x128.Idx) (k : Fin 128) :
    iblk3 V c 5 t (ix2 k (colOf j))
      = V c (Pipeline.arrRef spec3 5) (ix2 k (colOf (((cfg3.win 6).blk t).view.emb j))) := by
  obtain ⟨e0, e1, e2, e3, e4, e5, e6, e7, e8, e9, e10, e11, e12, e13⟩ := idx_facts3 t
  show V c (Pipeline.arrRef spec3 5) (((cfg3.win 5).blk t).view.emb (ix2 k (colOf j))) = _
  refine congrArg (V c (Pipeline.arrRef spec3 5)) (funext fun a => Fin.ext ?_)
  match a with
  | ⟨0, _⟩ =>
    show win3_5.index t (0 : Fin 2) * 128 + 1 * k.val = k.val
    omega
  | ⟨1, _⟩ =>
    show win3_5.index t (1 : Fin 2) * 128 + 1 * (j 1).val = win3_6.index t (1 : Fin 2) * 128 + 1 * (j 1).val
    omega

/-- What point `t` writes back is block `t` of the node update of the six arrays as the region finds them. -/
theorem flushed3 (c : Dev nD) (t : Fin cfg3.N) :
    (dat3 (F := Ideal) V c).flushed 6 t
      = ((cfg3.win 6).blk t).view.read (Elt Ideal)
          (nodeArrF (V c (Pipeline.arrRef spec3 0)) (V c (Pipeline.arrRef spec3 1)) (V c (Pipeline.arrRef spec3 2))
            (V c (Pipeline.arrRef spec3 3)) (V c (Pipeline.arrRef spec3 4)) (V c (Pipeline.arrRef spec3 5))) := by
  show (cfg3.win 6).cut (grid3.coords t) ((dat3 (F := Ideal) V c).after 6 t) = _
  rw [after3_6]
  unfold out3_6
  rw [View.canon_unit_zero hz]
  simp only [View.ld_unit_zero (S := S2000x128) hz, View.ld_unit_zero (S := S128x128) hz,
    View.ld_unit_zero (S := S2000x1) hz]
  funext j
  show k3_pay1 (F := Ideal) (iblk3 V c 2 t) (iblk3 V c 4 t) (iblk3 V c 5 t) (iblk3 V c 3 t) (iblk3 V c 1 t) (iblk3 V c 0 t) j
    = nodeAt (V c (Pipeline.arrRef spec3 0)) (V c (Pipeline.arrRef spec3 1)) (V c (Pipeline.arrRef spec3 2))
        (Ideal.cmp .ogt (V c (Pipeline.arrRef spec3 3) (ix2 (rowOf (((cfg3.win 6).blk t).view.emb j)) 0)) zeroW)
        (V c (Pipeline.arrRef spec3 4)) (V c (Pipeline.arrRef spec3 5))
        (rowOf (((cfg3.win 6).blk t).view.emb j)) (colOf (((cfg3.win 6).blk t).view.emb j))
  refine (pay3_at (iblk3 V c 0 t) (iblk3 V c 1 t) (iblk3 V c 2 t) (iblk3 V c 3 t) (iblk3 V c 4 t) (iblk3 V c 5 t) j).trans ?_
  unfold nodeAt rowDot
  rw [read3_0 V c t j, read3_1 V c t j, read3_3 V c t j]
  simp only [read3_2 V c t j, read3_4 V c t j, read3_5 V c t j]

/-- An index of the result array is in point `t`'s block iff each coordinate is in the block's range on its axis. -/
theorem mem_blk3 (t : Fin cfg3.N) (i : S50000x128.Idx) :
    i ∈ ((cfg3.win 6).blk t).view.set ↔ ∀ a : Fin 2, win3_6.index t a * S2000x128.size a ≤ (i a).val ∧ (i a).val < win3_6.index t a * S2000x128.size a + S2000x128.size a := by
  show i ∈ ((View.whole main_v50).slice (win3_6.rect t)).set ↔ _
  rw [View.set_slice_whole, Rect.mem_set_unit]
  exact Iff.rfl

/-- The twenty-five blocks of 2000 rows tile the 50000 rows: row `r` is in the block of point `r / 2000`. -/
theorem cover3 (i : S50000x128.Idx) :
    ∃ t : Fin cfg3.N, (cfg3.win 6).flush t = true ∧ i ∈ ((cfg3.win 6).blk t).view.set := by
  have hi0 : (i 0).val < 50000 := (i 0).isLt
  have hi1 : (i 1).val < 128 := (i 1).isLt
  have hN : (i 0).val / 2000 < cfg3.N := by show _ < grid3.N; rw [N_3]; omega
  obtain ⟨e0, e1, e2, e3, e4, e5, e6, e7, e8, e9, e10, e11, e12, e13⟩ := idx_facts3 ⟨(i 0).val / 2000, hN⟩
  refine ⟨⟨(i 0).val / 2000, hN⟩, flush3_6 _, ?_⟩
  rw [mem_blk3]
  intro a
  match a with
  | ⟨0, _⟩ =>
    show win3_6.index ⟨(i 0).val / 2000, hN⟩ (0 : Fin 2) * 2000 ≤ (i 0).val ∧ (i 0).val < win3_6.index ⟨(i 0).val / 2000, hN⟩ (0 : Fin 2) * 2000 + 2000
    rw [e12]; show (i 0).val / 2000 * 2000 ≤ (i 0).val ∧ (i 0).val < (i 0).val / 2000 * 2000 + 2000
    omega
  | ⟨1, _⟩ =>
    show win3_6.index ⟨(i 0).val / 2000, hN⟩ (1 : Fin 2) * 128 ≤ (i 1).val ∧ (i 1).val < win3_6.index ⟨(i 0).val / 2000, hN⟩ (1 : Fin 2) * 128 + 128
    rw [e13]; omega

/-- THE RESULT ARRAY after region 3: the node update of the six arrays the region was entered with. -/
theorem region3 (c : Dev nD) :
    (dat3 (F := Ideal) V c).arrAt 6 cfg3.N
      = nodeArrF (V c (Pipeline.arrRef spec3 0)) (V c (Pipeline.arrRef spec3 1)) (V c (Pipeline.arrRef spec3 2))
          (V c (Pipeline.arrRef spec3 3)) (V c (Pipeline.arrRef spec3 4)) (V c (Pipeline.arrRef spec3 5)) :=
  (dat3 (F := Ideal) V c).arrAt_eq_of_cover 6 _ (fun t _ => flushed3 V c t) (cover3)

end Cert.KernelIdeal.NodeRegion3

end
-- ==== Proof.KernelValue.lean ====
/-
  The kernel program's result as a function of its arguments.

  One layer takes the node features `h`: it gathers a feature row and a relation row per edge, forms the messages
  (first edge region), sums them into their destination nodes, and updates every node from the sums, its norm, its own
  features, the has-an-incoming-edge mask and the layer's two self-loop weights (node region). The program runs two
  layers, the second on the first's output, with the second slice of each weight stack. Read off the frame's fold: each
  region's result array is the specification's function of the arrays the region was entered with (the region modules),
  and those arrays are the host functions of the arguments and of the previous region's result (HostWalk.lean).
-/
import proofs.«123888_j49624052138542_1_alg».proof.Proof.KernelIdealRun
import proofs.«123888_j49624052138542_1_alg».proof.Proof.HostWalk
import proofs.«123888_j49624052138542_1_alg».proof.Proof.Layer
import proofs.«123888_j49624052138542_1_alg».proof.Proof.EdgeRegion0
import proofs.«123888_j49624052138542_1_alg».proof.Proof.EdgeRegion2
import proofs.«123888_j49624052138542_1_alg».proof.Proof.NodeRegion1
import proofs.«123888_j49624052138542_1_alg».proof.Proof.NodeRegion3

set_option maxRecDepth 16384

noncomputable section

namespace Cert.KernelIdeal.KValue

open Cert.KernelIdeal Cert.KernelIdeal.Gen Cert.KernelIdeal.GenP Cert.KernelIdeal.Terms Cert.Spec
open Idealize.ShloMosaic Idealize.ShloMosaic.TcCoe Idealize.SL.Sem

variable (m : (ℓ : Loc nD τ sig) → Buf (Elt Ideal) ℓ) (ρ : Dev nD → PrngReg) (c : Dev nD)

/-- The first layer's output, of the launch memory's argument arrays. -/
def out1 : Arr 50000 128 :=
  layer (m ((c : Thread nD τ).loc main_arg0)) (weight0 (F := Ideal) (m ((c : Thread nD τ).loc main_arg3))) (weight0 (F := Ideal) (m ((c : Thread nD τ).loc main_arg4))) (weight0 (F := Ideal) (m ((c : Thread nD τ).loc main_arg5)))
    (m ((c : Thread nD τ).loc main_arg1)) (m ((c : Thread nD τ).loc main_arg2)) (m ((c : Thread nD τ).loc main_arg6)) (m ((c : Thread nD τ).loc main_arg7)) (m ((c : Thread nD τ).loc main_arg8))

/-- The second layer's output: the program's result. -/
def out2 : Arr 50000 128 :=
  layer (out1 m c) (weight1 (F := Ideal) (m ((c : Thread nD τ).loc main_arg3))) (weight1 (F := Ideal) (m ((c : Thread nD τ).loc main_arg4))) (weight1 (F := Ideal) (m ((c : Thread nD τ).loc main_arg5)))
    (m ((c : Thread nD τ).loc main_arg1)) (m ((c : Thread nD τ).loc main_arg2)) (m ((c : Thread nD τ).loc main_arg6)) (m ((c : Thread nD τ).loc main_arg7)) (m ((c : Thread nD τ).loc main_arg8))

/-- After the first edge region its result array holds the first layer's messages. -/
theorem msg1_eq : W2 m ρ c (Proc.devRef .tc main_v24)
    = edgeArr (featRows (F := Ideal) (m ((c : Thread nD τ).loc main_arg0)) (m ((c : Thread nD τ).loc main_arg6))) (relRows (F := Ideal) (m ((c : Thread nD τ).loc main_arg1)) (m ((c : Thread nD τ).loc main_arg8))) (weight0 (F := Ideal) (m ((c : Thread nD τ).loc main_arg3))) := by
  refine (W2_arr m ρ c 3).trans ((EdgeRegion0.region0 (V1 m ρ) c).trans ?_)
  show edgeArr (W1 m ρ c (Proc.devRef .tc main_v21)) (W1 m ρ c (Proc.devRef .tc main_v14)) (W1 m ρ c (Proc.devRef .tc main_v23)) = _
  rw [Walk.w1_v21 m ρ c, Walk.w1_v14 m ρ c, Walk.w1_v23 m ρ c]

/-- After the first node region its result array holds the first layer's output. -/
theorem out1_eq : W4 m ρ c (Proc.devRef .tc main_v32) = out1 m c := by
  refine (W4_arr m ρ c 6).trans ((NodeRegion1.region1 (V3 m ρ) c).trans ?_)
  show nodeArrF (W3 m ρ c (Proc.devRef .tc main_v27)) (W3 m ρ c (Proc.devRef .tc main_arg2)) (W3 m ρ c (Proc.devRef .tc main_arg0))
      (W3 m ρ c (Proc.devRef .tc main_v7)) (W3 m ρ c (Proc.devRef .tc main_v29)) (W3 m ρ c (Proc.devRef .tc main_v31)) = _
  rw [Walk.w3_v27 m ρ c, Walk.w3_arg2 m ρ c, Walk.w3_arg0 m ρ c, Walk.w3_v7 m ρ c, Walk.w3_v29 m ρ c, Walk.w3_v31 m ρ c,
    msg1_eq m ρ c]
  rfl

/-- After the second edge region its result array holds the second layer's messages: of the first layer's output. -/
theorem msg2_eq : W6 m ρ c (Proc.devRef .tc main_v42)
    = edgeArr (featRows (F := Ideal) (out1 m c) (m ((c : Thread nD τ).loc main_arg6))) (relRows (F := Ideal) (m ((c : Thread nD τ).loc main_arg1)) (m ((c : Thread nD τ).loc main_arg8))) (weight1 (F := Ideal) (m ((c : Thread nD τ).loc main_arg3))) := by
  refine (W6_arr m ρ c 3).trans ((EdgeRegion2.region2 (V5 m ρ) c).trans ?_)
  show edgeArr (W5 m ρ c (Proc.devRef .tc main_v39)) (W5 m ρ c (Proc.devRef .tc main_v14)) (W5 m ρ c (Proc.devRef .tc main_v41)) = _
  rw [Walk.w5_v39 m ρ c, Walk.w5_v14 m ρ c, Walk.w5_v41 m ρ c, out1_eq m ρ c]

/-- After the last region the result buffer holds the second layer's output. -/
theorem out2_eq : W8 m ρ c (Proc.devRef .tc main_v50) = out2 m c := by
  refine (W8_arr m ρ c 6).trans ((NodeRegion3.region3 (V7 m ρ) c).trans ?_)
  show nodeArrF (W7 m ρ c (Proc.devRef .tc main_v45)) (W7 m ρ c (Proc.devRef .tc main_arg2)) (W7 m ρ c (Proc.devRef .tc main_v32))
      (W7 m ρ c (Proc.devRef .tc main_v7)) (W7 m ρ c (Proc.devRef .tc main_v47)) (W7 m ρ c (Proc.devRef .tc main_v49)) = _
  rw [Walk.w7_v45 m ρ c, Walk.w7_arg2 m ρ c, Walk.w7_v32 m ρ c, Walk.w7_v7 m ρ c, Walk.w7_v47 m ρ c, Walk.w7_v49 m ρ c,
    msg2_eq m ρ c, out1_eq m ρ c]
  rfl

/-- THE KERNEL'S RUN: every weakly fair execution terminates, nothing faulting, with the result buffer at two layers
    of the argument arrays and the arguments unchanged. -/
theorem run : θ_run (defs (F := Ideal)) (onTc (τ := τ) (main (F := Ideal))) ⟨m, fun _ => 0, ρ⟩ (fun r => ∀ c : Dev nD,
      r.2.mem ((c.tc : Thread nD τ).loc main_v50) = out2 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run (defs (F := Ideal)) _ _).mono (fun r h c => ⟨(h c).1.trans (out2_eq m ρ c), (h c).2⟩) (run_named (F := Ideal) m ρ)

end Cert.KernelIdeal.KValue

end
-- ==== Proof.RefStages.lean ====
/-
  The reference program's stages, restated through the specification.

  The reference runs two layers. In each, the messages are a matrix product of (gathered features + gathered
  relations) with a 128 × 128 weight, so entry `(p, q)` is the specification's `edgeAt` (`msg0`, `msg1`). The node
  update adds the summed messages, scaled by the node's norm, to the node's own row times one of two weights chosen by
  the node's mask bit, and applies the leaky activation, which is the specification's `nodeAt` with the mask as one bit
  per node (`layer0`, `layer1`). The scatter-sums and gathers stay as they are: nothing here looks inside them.

  Every statement is read at an entry `(p, q)`: each operation is read at that entry from its operands, the composed
  index maps are identified coordinate by coordinate (`(p, q) ↦ (p, 0)` for the norm column and the mask, `(p, k)` and
  `(k, q)` for a product's operands), and what is left is the specification's term. The two float literals stay words.
-/
import proofs.«123888_j49624052138542_1_alg».proof.Proof.RefRead
import proofs.«123888_j49624052138542_1_alg».proof.Proof.Spec

noncomputable section

open scoped BigOperators

namespace Cert.ReferenceIdeal.Stages

open Cert.ReferenceIdeal Cert.ReferenceIdeal.ReadP Idealize.ShloMosaic Idealize.ShloMosaic.ValueIdx

/-- Two rank-2 (or two rank-1) indices given coordinate by coordinate are equal when their coordinates are. -/
local macro "by_coords" : tactic =>
  `(tactic| exact funext fun a => Fin.ext (by
    match a with
    | ⟨0, _⟩ => rfl
    | ⟨1, _⟩ => rfl))

/-! ## Layer 0 -/

/-- The messages of layer 0: entry `(p, q)` is row `p` of the gathered features plus the gathered relations, times
    column `q` of the first message weight. -/
theorem msg0 (x0 : (⟨S50000x128, .f32⟩ : BufTy).Contents (Elt Ideal)) (x1 : (⟨S200x128, .f32⟩ : BufTy).Contents (Elt Ideal))
    (x3 : (⟨S2x128x128, .f32⟩ : BufTy).Contents (Elt Ideal)) (x6 x8 : (⟨S500000, .i32⟩ : BufTy).Contents (Elt Ideal)) :
    val_main_v24 (F := Ideal) x0 x1 x3 x6 x8
      = Cert.Spec.edgeArr (val_main_v13 (F := Ideal) x0 x6) (val_main_v20 (F := Ideal) x1 x8) (val_main_v23 (F := Ideal) x3) := by
  funext i
  obtain ⟨p, q, rfl⟩ : ∃ (p : Fin 500000) (q : Fin 128), i = ix2 p q := ⟨i 0, i 1, eq_ix2 i⟩
  rw [val_main_v24_apply, Cert.Spec.edgeArr_ix2]
  unfold Cert.Spec.edgeAt
  refine Finset.sum_congr rfl fun k _ => ?_
  have el : lidx_main_v24 (ix2 p q) k = ix2 p k := by by_coords
  have er : ridx_main_v24 (ix2 p q) k = ix2 k q := by by_coords
  rw [el, er, val_main_v21_apply]
  rfl

/-- The node's own row times the weight used where it has an incoming edge. -/
theorem selfL0 (x0 : (⟨S50000x128, .f32⟩ : BufTy).Contents (Elt Ideal)) (x4 : (⟨S2x128x128, .f32⟩ : BufTy).Contents (Elt Ideal))
    (p : Fin 50000) (q : Fin 128) :
    val_main_v32 (F := Ideal) x0 x4 (ix2 p q) = Cert.Spec.rowDot x0 (val_main_v31 (F := Ideal) x4) p q := by
  rw [val_main_v32_apply]
  unfold Cert.Spec.rowDot
  refine Finset.sum_congr rfl fun k _ => ?_
  have el : lidx_main_v32 (ix2 p q) k = ix2 p k := by by_coords
  have er : ridx_main_v32 (ix2 p q) k = ix2 k q := by by_coords
  rw [el, er]

/-- The node's own row times the weight used where it has none. -/
theorem selfA0 (x0 : (⟨S50000x128, .f32⟩ : BufTy).Contents (Elt Ideal)) (x5 : (⟨S2x128x128, .f32⟩ : BufTy).Contents (Elt Ideal))
    (p : Fin 50000) (q : Fin 128) :
    val_main_v35 (F := Ideal) x0 x5 (ix2 p q) = Cert.Spec.rowDot x0 (val_main_v34 (F := Ideal) x5) p q := by
  rw [val_main_v35_apply]
  unfold Cert.Spec.rowDot
  refine Finset.sum_congr rfl fun k _ => ?_
  have el : lidx_main_v35 (ix2 p q) k = ix2 p k := by by_coords
  have er : ridx_main_v35 (ix2 p q) k = ix2 k q := by by_coords
  rw [el, er]

/-- The mask of layer 0, broadcast along the row, reads the node's bit. -/
theorem mask0 (x7 : (⟨S500000, .i32⟩ : BufTy).Contents (Elt Ideal)) (p : Fin 50000) (q : Fin 128) :
    val_main_call0_v0 (F := Ideal) x7 (ix2 p q) = val_main_v5 (F := Ideal) x7 (ix1 p) := by
  rw [val_main_call0_v0_apply, val_main_v6_apply]
  have e : idx_main_v6 (idx_main_call0_v0 (ix2 p q)) = ix1 p := funext fun a => Fin.ext (by
    match a with
    | ⟨0, _⟩ => rfl)
  rw [e]

/-- The sum of layer 0 before the activation: the summed messages scaled by the norm, plus the selected self-loop. -/
theorem pre0 (x0 : (⟨S50000x128, .f32⟩ : BufTy).Contents (Elt Ideal)) (x1 : (⟨S200x128, .f32⟩ : BufTy).Contents (Elt Ideal))
    (x2 : (⟨S50000x1, .f32⟩ : BufTy).Contents (Elt Ideal)) (x3 x4 x5 : (⟨S2x128x128, .f32⟩ : BufTy).Contents (Elt Ideal))
    (x6 x7 x8 : (⟨S500000, .i32⟩ : BufTy).Contents (Elt Ideal)) (p : Fin 50000) (q : Fin 128) :
    val_main_v37 (F := Ideal) x0 x1 x2 x3 x4 x5 x6 x7 x8 (ix2 p q)
      = val_main_v27 (F := Ideal) x0 x1 x3 x6 x7 x8 (ix2 p q) * x2 (ix2 p 0)
        + Scalar.select (val_main_v5 (F := Ideal) x7 (ix1 p)) (Cert.Spec.rowDot x0 (val_main_v31 (F := Ideal) x4) p q)
            (Cert.Spec.rowDot x0 (val_main_v34 (F := Ideal) x5) p q) := by
  rw [val_main_v37_apply, val_main_v29_apply, val_main_v28_apply, val_main_v36_apply, mask0, selfL0, selfA0]
  have e : idx_main_v28 (ix2 p q) = ix2 p 0 := by by_coords
  rw [e]
  rfl

/-- Layer 0 is the node update of the specification, on the summed messages of layer 0, the norms, the input features,
    the bit mask and the two self-loop weights of layer 0. -/
theorem layer0 (x0 : (⟨S50000x128, .f32⟩ : BufTy).Contents (Elt Ideal)) (x1 : (⟨S200x128, .f32⟩ : BufTy).Contents (Elt Ideal))
    (x2 : (⟨S50000x1, .f32⟩ : BufTy).Contents (Elt Ideal)) (x3 x4 x5 : (⟨S2x128x128, .f32⟩ : BufTy).Contents (Elt Ideal))
    (x6 x7 x8 : (⟨S500000, .i32⟩ : BufTy).Contents (Elt Ideal)) :
    val_main_v42 (F := Ideal) x0 x1 x2 x3 x4 x5 x6 x7 x8
      = Cert.Spec.nodeArrB (val_main_v27 (F := Ideal) x0 x1 x3 x6 x7 x8) x2 x0 (val_main_v5 (F := Ideal) x7)
          (val_main_v31 (F := Ideal) x4) (val_main_v34 (F := Ideal) x5) := by
  funext i
  obtain ⟨p, q, rfl⟩ : ∃ (p : Fin 50000) (q : Fin 128), i = ix2 p q := ⟨i 0, i 1, eq_ix2 i⟩
  rw [Cert.Spec.nodeArrB_ix2, val_main_v42_apply, val_main_v39_apply, val_main_v41_apply, val_main_v38_apply,
    val_main_v40_apply, val_main_cst_6_apply, val_main_cst_7_apply, pre0]
  rfl

/-! ## Layer 1 -/

/-- The messages of layer 1: the same on the features layer 0 produced and the second message weight. -/
theorem msg1 (x0 : (⟨S50000x128, .f32⟩ : BufTy).Contents (Elt Ideal)) (x1 : (⟨S200x128, .f32⟩ : BufTy).Contents (Elt Ideal))
    (x2 : (⟨S50000x1, .f32⟩ : BufTy).Contents (Elt Ideal)) (x3 x4 x5 : (⟨S2x128x128, .f32⟩ : BufTy).Contents (Elt Ideal))
    (x6 x7 x8 : (⟨S500000, .i32⟩ : BufTy).Contents (Elt Ideal)) :
    val_main_v60 (F := Ideal) x0 x1 x2 x3 x4 x5 x6 x7 x8
      = Cert.Spec.edgeArr (val_main_v49 (F := Ideal) x0 x1 x2 x3 x4 x5 x6 x7 x8) (val_main_v56 (F := Ideal) x1 x8) (val_main_v59 (F := Ideal) x3) := by
  funext i
  obtain ⟨p, q, rfl⟩ : ∃ (p : Fin 500000) (q : Fin 128), i = ix2 p q := ⟨i 0, i 1, eq_ix2 i⟩
  rw [val_main_v60_apply, Cert.Spec.edgeArr_ix2]
  unfold Cert.Spec.edgeAt
  refine Finset.sum_congr rfl fun k _ => ?_
  have el : lidx_main_v60 (ix2 p q) k = ix2 p k := by by_coords
  have er : ridx_main_v60 (ix2 p q) k = ix2 k q := by by_coords
  rw [el, er, val_main_v57_apply]
  rfl

/-- Layer 1: the node's row of layer 0's output times the weight used where it has an incoming edge. -/
theorem selfL1 (x0 : (⟨S50000x128, .f32⟩ : BufTy).Contents (Elt Ideal)) (x1 : (⟨S200x128, .f32⟩ : BufTy).Contents (Elt Ideal))
    (x2 : (⟨S50000x1, .f32⟩ : BufTy).Contents (Elt Ideal)) (x3 x4 x5 : (⟨S2x128x128, .f32⟩ : BufTy).Contents (Elt Ideal))
    (x6 x7 x8 : (⟨S500000, .i32⟩ : BufTy).Contents (Elt Ideal)) (p : Fin 50000) (q : Fin 128) :
    val_main_v68 (F := Ideal) x0 x1 x2 x3 x4 x5 x6 x7 x8 (ix2 p q)
      = Cert.Spec.rowDot (val_main_v42 (F := Ideal) x0 x1 x2 x3 x4 x5 x6 x7 x8) (val_main_v67 (F := Ideal) x4) p q := by
  rw [val_main_v68_apply]
  unfold Cert.Spec.rowDot
  refine Finset.sum_congr rfl fun k _ => ?_
  have el : lidx_main_v68 (ix2 p q) k = ix2 p k := by by_coords
  have er : ridx_main_v68 (ix2 p q) k = ix2 k q := by by_coords
  rw [el, er]

/-- Layer 1: the node's row of layer 0's output times the weight used where it has none. -/
theorem selfA1 (x0 : (⟨S50000x128, .f32⟩ : BufTy).Contents (Elt Ideal)) (x1 : (⟨S200x128, .f32⟩ : BufTy).Contents (Elt Ideal))
    (x2 : (⟨S50000x1, .f32⟩ : BufTy).Contents (Elt Ideal)) (x3 x4 x5 : (⟨S2x128x128, .f32⟩ : BufTy).Contents (Elt Ideal))
    (x6 x7 x8 : (⟨S500000, .i32⟩ : BufTy).Contents (Elt Ideal)) (p : Fin 50000) (q : Fin 128) :
    val_main_v71 (F := Ideal) x0 x1 x2 x3 x4 x5 x6 x7 x8 (ix2 p q)
      = Cert.Spec.rowDot (val_main_v42 (F := Ideal) x0 x1 x2 x3 x4 x5 x6 x7 x8) (val_main_v70 (F := Ideal) x5) p q := by
  rw [val_main_v71_apply]
  unfold Cert.Spec.rowDot
  refine Finset.sum_congr rfl fun k _ => ?_
  have el : lidx_main_v71 (ix2 p q) k = ix2 p k := by by_coords
  have er : ridx_main_v71 (ix2 p q) k = ix2 k q := by by_coords
  rw [el, er]

/-- The mask of layer 1 is the same bit mask, broadcast along the row again. -/
theorem mask1 (x7 : (⟨S500000, .i32⟩ : BufTy).Contents (Elt Ideal)) (p : Fin 50000) (q : Fin 128) :
    val_main_call2_v0 (F := Ideal) x7 (ix2 p q) = val_main_v5 (F := Ideal) x7 (ix1 p) := by
  rw [val_main_call2_v0_apply, val_main_v6_apply]
  have e : idx_main_v6 (idx_main_call2_v0 (ix2 p q)) = ix1 p := funext fun a => Fin.ext (by
    match a with
    | ⟨0, _⟩ => rfl)
  rw [e]

/-- The sum of layer 1 before the activation. -/
theorem pre1 (x0 : (⟨S50000x128, .f32⟩ : BufTy).Contents (Elt Ideal)) (x1 : (⟨S200x128, .f32⟩ : BufTy).Contents (Elt Ideal))
    (x2 : (⟨S50000x1, .f32⟩ : BufTy).Contents (Elt Ideal)) (x3 x4 x5 : (⟨S2x128x128, .f32⟩ : BufTy).Contents (Elt Ideal))
    (x6 x7 x8 : (⟨S500000, .i32⟩ : BufTy).Contents (Elt Ideal)) (p : Fin 50000) (q : Fin 128) :
    val_main_v73 (F := Ideal) x0 x1 x2 x3 x4 x5 x6 x7 x8 (ix2 p q)
      = val_main_v63 (F := Ideal) x0 x1 x2 x3 x4 x5 x6 x7 x8 (ix2 p q) * x2 (ix2 p 0)
        + Scalar.select (val_main_v5 (F := Ideal) x7 (ix1 p))
            (Cert.Spec.rowDot (val_main_v42 (F := Ideal) x0 x1 x2 x3 x4 x5 x6 x7 x8) (val_main_v67 (F := Ideal) x4) p q)
            (Cert.Spec.rowDot (val_main_v42 (F := Ideal) x0 x1 x2 x3 x4 x5 x6 x7 x8) (val_main_v70 (F := Ideal) x5) p q) := by
  rw [val_main_v73_apply, val_main_v65_apply, val_main_v64_apply, val_main_v72_apply, mask1, selfL1, selfA1]
  have e : idx_main_v64 (ix2 p q) = ix2 p 0 := by by_coords
  rw [e]
  rfl

/-- Layer 1 is the node update of the specification, on the summed messages of layer 1, the norms, layer 0's output,
    the bit mask and the two self-loop weights of layer 1. -/
theorem layer1 (x0 : (⟨S50000x128, .f32⟩ : BufTy).Contents (Elt Ideal)) (x1 : (⟨S200x128, .f32⟩ : BufTy).Contents (Elt Ideal))
    (x2 : (⟨S50000x1, .f32⟩ : BufTy).Contents (Elt Ideal)) (x3 x4 x5 : (⟨S2x128x128, .f32⟩ : BufTy).Contents (Elt Ideal))
    (x6 x7 x8 : (⟨S500000, .i32⟩ : BufTy).Contents (Elt Ideal)) :
    val_main_v78 (F := Ideal) x0 x1 x2 x3 x4 x5 x6 x7 x8
      = Cert.Spec.nodeArrB (val_main_v63 (F := Ideal) x0 x1 x2 x3 x4 x5 x6 x7 x8) x2 (val_main_v42 (F := Ideal) x0 x1 x2 x3 x4 x5 x6 x7 x8) (val_main_v5 (F := Ideal) x7)
          (val_main_v67 (F := Ideal) x4) (val_main_v70 (F := Ideal) x5) := by
  funext i
  obtain ⟨p, q, rfl⟩ : ∃ (p : Fin 50000) (q : Fin 128), i = ix2 p q := ⟨i 0, i 1, eq_ix2 i⟩
  rw [Cert.Spec.nodeArrB_ix2, val_main_v78_apply, val_main_v75_apply, val_main_v77_apply, val_main_v74_apply,
    val_main_v76_apply, val_main_cst_13_apply, val_main_cst_14_apply, pre1]
  rfl

end Cert.ReferenceIdeal.Stages

end
-- ==== Proof.Bridge.lean ====
/-
  The kernel's two layers are the reference's.

  Both programs wrap the same host operations around their arithmetic — the same gathers by wrapped indices, the same
  slices of the weight stacks, the same scatter-sums, the same count of incoming edges — so each of the kernel's host
  functions IS the reference's stage of the same arguments, by unfolding the definitions (for any float values: nothing
  about floats is used). What differs is the arithmetic between them, and there both sides are the specification's
  functions: the messages are `edgeArr` on both sides, and a node update is `nodeArrF` of the float mask column in
  the kernel and `nodeArrB` of the bit mask in the reference, equal because the column is the bits turned into 0 and 1.
-/
import proofs.«123888_j49624052138542_1_alg».proof.Proof.Layer
import proofs.«123888_j49624052138542_1_alg».proof.Proof.RefStages
import Idealize.ShloMosaic.Lib.Pipeline.Value
import Idealize.ShloMosaic.Lib.ValueIdx

set_option maxRecDepth 16384

noncomputable section

namespace Cert.Bridge

open Cert.Spec Cert.KernelIdeal.Terms Cert.KernelIdeal.KValue Cert.ReferenceIdeal.ReadP
open Idealize.ShloMosaic Idealize.ShloMosaic.ValueIdx

/-! ## The host functions are the reference's stages (for any float values) -/

section Host

open Cert.ReferenceIdeal

variable {F : FTy → Type} [FloatOps F]

theorem featRows_v13 (h : (⟨S50000x128, .f32⟩ : BufTy).Contents (Elt F)) (x6 : (⟨S500000, .i32⟩ : BufTy).Contents (Elt F)) :
    featRows (F := F) h x6 = val_main_v13 (F := F) h x6 := rfl
theorem relRows_v20 (x1 : (⟨S200x128, .f32⟩ : BufTy).Contents (Elt F)) (x8 : (⟨S500000, .i32⟩ : BufTy).Contents (Elt F)) :
    relRows (F := F) x1 x8 = val_main_v20 (F := F) x1 x8 := rfl
theorem relRows_v56 (x1 : (⟨S200x128, .f32⟩ : BufTy).Contents (Elt F)) (x8 : (⟨S500000, .i32⟩ : BufTy).Contents (Elt F)) :
    relRows (F := F) x1 x8 = val_main_v56 (F := F) x1 x8 := rfl
theorem weight0_v23 (w : (⟨S2x128x128, .f32⟩ : BufTy).Contents (Elt F)) : weight0 (F := F) w = val_main_v23 (F := F) w := rfl
theorem weight0_v31 (w : (⟨S2x128x128, .f32⟩ : BufTy).Contents (Elt F)) : weight0 (F := F) w = val_main_v31 (F := F) w := rfl
theorem weight0_v34 (w : (⟨S2x128x128, .f32⟩ : BufTy).Contents (Elt F)) : weight0 (F := F) w = val_main_v34 (F := F) w := rfl
theorem weight1_v59 (w : (⟨S2x128x128, .f32⟩ : BufTy).Contents (Elt F)) : weight1 (F := F) w = val_main_v59 (F := F) w := rfl
theorem weight1_v67 (w : (⟨S2x128x128, .f32⟩ : BufTy).Contents (Elt F)) : weight1 (F := F) w = val_main_v67 (F := F) w := rfl
theorem weight1_v70 (w : (⟨S2x128x128, .f32⟩ : BufTy).Contents (Elt F)) : weight1 (F := F) w = val_main_v70 (F := F) w := rfl
theorem hasIn_v5 (x7 : (⟨S500000, .i32⟩ : BufTy).Contents (Elt F)) : hasIn (F := F) x7 = val_main_v5 (F := F) x7 := rfl
/-- The first layer's summed messages: the scatter-sum of the stage holding the messages. -/
theorem sumInto_v27 (x0 : (⟨S50000x128, .f32⟩ : BufTy).Contents (Elt F)) (x1 : (⟨S200x128, .f32⟩ : BufTy).Contents (Elt F)) (x3 : (⟨S2x128x128, .f32⟩ : BufTy).Contents (Elt F)) (x6 x7 x8 : (⟨S500000, .i32⟩ : BufTy).Contents (Elt F)) :
    sumInto (F := F) x7 (val_main_v24 (F := F) x0 x1 x3 x6 x8) = val_main_v27 (F := F) x0 x1 x3 x6 x7 x8 := rfl
/-- The second layer's. -/
theorem sumInto_v63 (x0 : (⟨S50000x128, .f32⟩ : BufTy).Contents (Elt F)) (x1 : (⟨S200x128, .f32⟩ : BufTy).Contents (Elt F)) (x2 : (⟨S50000x1, .f32⟩ : BufTy).Contents (Elt F)) (x3 x4 x5 : (⟨S2x128x128, .f32⟩ : BufTy).Contents (Elt F)) (x6 x7 x8 : (⟨S500000, .i32⟩ : BufTy).Contents (Elt F)) :
    sumInto (F := F) x7 (val_main_v60 (F := F) x0 x1 x2 x3 x4 x5 x6 x7 x8) = val_main_v63 (F := F) x0 x1 x2 x3 x4 x5 x6 x7 x8 := rfl
/-- The second layer gathers rows of the first layer's output. -/
theorem featRows_v49 (x0 : (⟨S50000x128, .f32⟩ : BufTy).Contents (Elt F)) (x1 : (⟨S200x128, .f32⟩ : BufTy).Contents (Elt F)) (x2 : (⟨S50000x1, .f32⟩ : BufTy).Contents (Elt F)) (x3 x4 x5 : (⟨S2x128x128, .f32⟩ : BufTy).Contents (Elt F)) (x6 x7 x8 : (⟨S500000, .i32⟩ : BufTy).Contents (Elt F)) :
    featRows (F := F) (val_main_v42 (F := F) x0 x1 x2 x3 x4 x5 x6 x7 x8) x6 = val_main_v49 (F := F) x0 x1 x2 x3 x4 x5 x6 x7 x8 := rfl

end Host

/-! ## The mask column is the mask bits as floats -/

open Cert.KernelIdeal Cert.KernelIdeal.Gen in
/-- Entry (p, 0) of the float mask column is bit p of "has an incoming edge", as 0 or 1. -/
theorem maskCol_entry (x7 : (⟨Cert.KernelIdeal.S500000, .i32⟩ : BufTy).Contents (Elt Ideal)) (p : Fin 50000) :
    maskCol (F := Ideal) x7 (ix2 p 0) = (((hasIn (F := Ideal) x7 (ix1 p)).toNat : ℝ) : EReal) := by
  unfold maskCol
  generalize hasIn (F := Ideal) x7 = b
  refine (broadcastInDim_apply _ bcast_S50000_S50000x1_0 (uitofp (F := Ideal) .f32 b) (ix2 p 0) (ix1 p) (fun a => match a with
    | ⟨0, _⟩ => by show p.val = if (50000 : Nat) = 1 then 0 else p.val; rw [if_neg (by decide)])).trans ?_
  rfl

/-! ## The layers -/

open Cert.ReferenceIdeal

/-- The kernel's first layer is the reference's stage holding its first layer's output. -/
theorem layer0_eq (x0 : (⟨S50000x128, .f32⟩ : BufTy).Contents (Elt Ideal)) (x1 : (⟨S200x128, .f32⟩ : BufTy).Contents (Elt Ideal)) (x2 : (⟨S50000x1, .f32⟩ : BufTy).Contents (Elt Ideal)) (x3 x4 x5 : (⟨S2x128x128, .f32⟩ : BufTy).Contents (Elt Ideal)) (x6 x7 x8 : (⟨S500000, .i32⟩ : BufTy).Contents (Elt Ideal)) :
    layer x0 (weight0 (F := Ideal) x3) (weight0 (F := Ideal) x4) (weight0 (F := Ideal) x5) x1 x2 x6 x7 x8
      = val_main_v42 (F := Ideal) x0 x1 x2 x3 x4 x5 x6 x7 x8 := by
  unfold layer
  rw [nodeArrF_eq_nodeArrB _ _ _ _ (val_main_v5 (F := Ideal) x7) _ _ (fun p => (maskCol_entry x7 p).trans (by rw [hasIn_v5])),
    Cert.ReferenceIdeal.Stages.layer0, ← sumInto_v27, Cert.ReferenceIdeal.Stages.msg0,
    featRows_v13, relRows_v20, weight0_v23, weight0_v31, weight0_v34]

/-- The kernel's second layer, on the reference's first-layer stage, is the reference's result stage. -/
theorem layer1_eq (x0 : (⟨S50000x128, .f32⟩ : BufTy).Contents (Elt Ideal)) (x1 : (⟨S200x128, .f32⟩ : BufTy).Contents (Elt Ideal)) (x2 : (⟨S50000x1, .f32⟩ : BufTy).Contents (Elt Ideal)) (x3 x4 x5 : (⟨S2x128x128, .f32⟩ : BufTy).Contents (Elt Ideal)) (x6 x7 x8 : (⟨S500000, .i32⟩ : BufTy).Contents (Elt Ideal)) :
    layer (val_main_v42 (F := Ideal) x0 x1 x2 x3 x4 x5 x6 x7 x8) (weight1 (F := Ideal) x3) (weight1 (F := Ideal) x4) (weight1 (F := Ideal) x5) x1 x2 x6 x7 x8
      = val_main_v78 (F := Ideal) x0 x1 x2 x3 x4 x5 x6 x7 x8 := by
  unfold layer
  rw [nodeArrF_eq_nodeArrB _ _ _ _ (val_main_v5 (F := Ideal) x7) _ _ (fun p => (maskCol_entry x7 p).trans (by rw [hasIn_v5])),
    Cert.ReferenceIdeal.Stages.layer1, ← sumInto_v63, Cert.ReferenceIdeal.Stages.msg1,
    featRows_v49, relRows_v56, weight1_v59, weight1_v67, weight1_v70]

/-- THE BRIDGE: two layers of the kernel's program on the arguments are the reference's result stage of them. -/
theorem two_layers (x0 : (⟨S50000x128, .f32⟩ : BufTy).Contents (Elt Ideal)) (x1 : (⟨S200x128, .f32⟩ : BufTy).Contents (Elt Ideal)) (x2 : (⟨S50000x1, .f32⟩ : BufTy).Contents (Elt Ideal)) (x3 x4 x5 : (⟨S2x128x128, .f32⟩ : BufTy).Contents (Elt Ideal)) (x6 x7 x8 : (⟨S500000, .i32⟩ : BufTy).Contents (Elt Ideal)) :
    layer (layer x0 (weight0 (F := Ideal) x3) (weight0 (F := Ideal) x4) (weight0 (F := Ideal) x5) x1 x2 x6 x7 x8)
        (weight1 (F := Ideal) x3) (weight1 (F := Ideal) x4) (weight1 (F := Ideal) x5) x1 x2 x6 x7 x8
      = val_main_v78 (F := Ideal) x0 x1 x2 x3 x4 x5 x6 x7 x8 := by
  rw [layer0_eq, layer1_eq]

end Cert.Bridge

end
-- ==== Proof.RefValue.lean ====
/-
  The reference program's run, read as stages.

  The reference is one line of host operations. Its run ends with the result buffer at the operations' composed term of
  the arguments; that term is the last of the program's stages — the stages are the same operations taken one at a
  time, each defined from the ones before — so unfolding both sides identifies them.
-/
import proofs.«123888_j49624052138542_1_alg».proof.Proof.RefRun
import proofs.«123888_j49624052138542_1_alg».proof.Proof.RefRead

set_option maxRecDepth 16384

noncomputable section

namespace Cert.ReferenceIdeal.RefValue

open Cert.ReferenceIdeal Cert.ReferenceIdeal.Gen Idealize.ShloMosaic Idealize.ShloMosaic.TcCoe Idealize.SL.Sem

variable {F : FTy → Type} [FloatOps F]

/-- The run's composed term of the arguments is the last stage of them. -/
theorem res_eq (m : (ℓ : Loc nD τ sig) → Buf (Elt F) ℓ) (c : Dev nD) :
    ValueP.res_main_v78 (F := F) m c
      = ReadP.val_main_v78 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  unfold ValueP.res_main_v78; rfl

/-- THE REFERENCE'S RUN: every weakly fair execution terminates, nothing faulting, with the result buffer at the last
    stage of the argument arrays and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v78)
        = ReadP.val_main_v78 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run (defs (F := Ideal)) _ _).mono (fun _ h c => ⟨(h c).1.trans (res_eq m c), (h c).2⟩) (ValueP.run (F := Ideal) m ρ)

end Cert.ReferenceIdeal.RefValue

end
-- ==== Proof.lean ====
/-
  A two-layer relational graph network: the kernel against its reference, over the extended reals.

  Both programs compute, twice over, h ↦ activation( norm · Σ_{edges into the node} (h[src] + rel[etype]) · Wn
  + h · (Wl where the node has an incoming edge, Wa where it has none) ), the second layer on the first's output. The
  kernel does the two matrix products of each layer in blocks, in two kernels per layer (the messages per block of
  5000 edges, the node update per block of 2000 nodes), with its operands narrowed to bf16 on the way into the
  product — the identity on extended reals — and takes the has-an-incoming-edge mask as the floats 0 and 1; the gathers
  by source node and relation type and the sums into destination nodes are the same host operations in both programs.

  So over the extended reals the two results are one function of the arguments. Each kernel region leaves in its result
  array one whole-array function of the arrays it was entered with (the messages `edgeArr`, the node update
  `nodeArrF`: the region modules over the payload modules), those arrays are the shared host functions of the
  arguments and of the previous region's result (the walk along the frame's fold), and the reference's stages are the
  same functions, with the mask as bits (`nodeArrB`) — equal to the float form because a bit turned into 0 or 1 is
  above zero exactly when it is set. No law of arithmetic beyond that is used: the sums are the same sums in the same
  order, and the two float literals the programs share are never evaluated; the precondition is not needed.

  The three frames are the programs' runs with the result forgotten; `preserves` has nothing to state (the ideal pass
  rewrote no operation).
-/
import proofs.«123888_j49624052138542_1_alg».proof.Defs
import proofs.«123888_j49624052138542_1_alg».proof.Proof.Gen.Kernel
import proofs.«123888_j49624052138542_1_alg».proof.Proof.Gen.KernelIdeal
import proofs.«123888_j49624052138542_1_alg».proof.Proof.Gen.ReferenceIdeal
import proofs.«123888_j49624052138542_1_alg».proof.Proof.Gen.Pre_finite_inputs
import proofs.«123888_j49624052138542_1_alg».proof.Proof.KernelFrame
import proofs.«123888_j49624052138542_1_alg».proof.Proof.KernelValue
import proofs.«123888_j49624052138542_1_alg».proof.Proof.Bridge
import proofs.«123888_j49624052138542_1_alg».proof.Proof.RefValue
import Idealize.ShloMosaic.Adequacy
import Idealize.ShloMosaic.Init

noncomputable section

namespace Cert.Proof

open Idealize.ShloMosaic Idealize.SL.Sem

/-- The word-level kernel runs and leaves its arguments as launched. -/
theorem frame_kernel : Cert.frame_Kernel := fun m ρ _ => Cert.Kernel.GenP.frame m ρ

/-- So does the kernel read over the extended reals. -/
theorem frame_kernelIdeal : Cert.frame_KernelIdeal := fun m ρ _ => Cert.KernelIdeal.GenP.frame m ρ

/-- The reference's frame is its run with the result forgotten. -/
theorem frame_referenceIdeal : Cert.frame_ReferenceIdeal := fun m ρ _ =>
  (θ_run Cert.ReferenceIdeal.defs _ _).mono (fun _ h c => (h c).2) (Cert.ReferenceIdeal.RefValue.run m ρ)

/-- The ideal pass rewrote no operation: nothing to state. -/
theorem preserves : Cert.preserves_Kernel_KernelIdeal := trivial

/-- From memories agreeing on the arguments both programs run, and both results are two layers of the arguments: the
    kernel's by its regions and the host operations between them, the reference's by its stages, one function. -/
theorem algebraic : Cert.algebraic_KernelIdeal_ReferenceIdeal := by
  intro m ρ m' ρ' _ hagree
  refine ⟨fun c => Cert.KernelIdeal.KValue.out2 m c, Cert.KernelIdeal.KValue.run m ρ, ?_⟩
  refine (θ_run Cert.ReferenceIdeal.defs _ _).mono (fun _ h c => ⟨(h c).1.trans ?_, (h c).2⟩)
    (Cert.ReferenceIdeal.RefValue.run m' ρ')
  obtain ⟨h0, h1, h2, h3, h4, h5, h6, h7, h8⟩ := hagree c
  rw [h0, h1, h2, h3, h4, h5, h6, h7, h8]
  unfold Cert.KernelIdeal.KValue.out2 Cert.KernelIdeal.KValue.out1
  exact (Cert.Bridge.two_layers _ _ _ _ _ _ _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
